-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x1024 : Shape := ⟨3, ![1, 512, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel

variable [Facts]

def fn {F : FTy → Type} [FloatOps F] (main_arg0 : FVec F S1x512x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  main_v3
-- ==== Pre_finite_inputs_ReferenceIdeal.lean ====
abbrev S2x512x1024 : Shape := ⟨3, ![2, 512, 1024]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel

variable [Facts]

def fn {F : FTy → Type} [FloatOps F] (main_arg0 : FVec F S2x512x1024 .f32) : IVec S_ 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  main_v3
-- ==== Kernel.lean ====
abbrev S1x512x1024 : Shape := ⟨3, ![1, 512, 1024]⟩
abbrev S512x512 : Shape := ⟨2, ![512, 512]⟩
abbrev S4 : Shape := ⟨1, ![4]⟩
abbrev S_ : Shape := ⟨0, ![]⟩
abbrev S1x128x512 : Shape := ⟨3, ![1, 128, 512]⟩
abbrev S128x512 : Shape := ⟨2, ![128, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x512x1024, .f32⟩
  | .hbm, ⟨1, _⟩ => ⟨S512x512, .f32⟩
  | .local _ .vmem, ⟨0, _⟩ => ⟨S1x512x1024, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 3 → Nat :=
  let c0 : Index := 0#32
  let c0_7 : Index := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  let v18 : Index := Scalar.indexCast v17
  ![0, 0, v18.toNat]
def k0_dev2 (d0 : Dev nD) : Nat :=
  let c0_i32_14 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_13 : BitVec 32 := 8#32
  let v25 : BitVec 32 := Scalar.muli v9 c8_i32_13
  let v26 : BitVec 32 := Scalar.addi c0_i32_14 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v27 : BitVec 32 := Scalar.muli v5 c4_i32_15
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v29 : BitVec 32 := Scalar.muli v8 c1_i32_16
  let v30 : BitVec 32 := Scalar.addi v28 v29
  v30.toNat
def k0_off2 (d0 : Dev nD) : Fin 3 → Nat :=
  let c0_22 : Index := 0#32
  let c128 : Index := 128#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32_21 : BitVec 32 := 512#32
  let v37 : BitVec 32 := Scalar.muli v9 c512_i32_21
  let v38 : Index := Scalar.indexCast v37
  ![0, 128, v38.toNat]
def k0_dev3 (d0 : Dev nD) : Nat :=
  let c0_i32_28 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_27 : BitVec 32 := 8#32
  let v45 : BitVec 32 := Scalar.muli v9 c8_i32_27
  let v46 : BitVec 32 := Scalar.addi c0_i32_28 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v47 : BitVec 32 := Scalar.muli v5 c4_i32_29
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v49 : BitVec 32 := Scalar.muli v8 c1_i32_30
  let v50 : BitVec 32 := Scalar.addi v48 v49
  v50.toNat
def k0_off3 (d0 : Dev nD) : Fin 3 → Nat :=
  let c0_35 : Index := 0#32
  let c256 : Index := 256#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32_34 : BitVec 32 := 512#32
  let v57 : BitVec 32 := Scalar.muli v9 c512_i32_34
  let v58 : Index := Scalar.indexCast v57
  ![0, 256, v58.toNat]
def k0_dev4 (d0 : Dev nD) : Nat :=
  let c0_i32_41 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_40 : BitVec 32 := 8#32
  let v65 : BitVec 32 := Scalar.muli v9 c8_i32_40
  let v66 : BitVec 32 := Scalar.addi c0_i32_41 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v67 : BitVec 32 := Scalar.muli v5 c4_i32_42
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v69 : BitVec 32 := Scalar.muli v8 c1_i32_43
  let v70 : BitVec 32 := Scalar.addi v68 v69
  v70.toNat
def k0_off4 (d0 : Dev nD) : Fin 3 → Nat :=
  let c0_48 : Index := 0#32
  let c384 : Index := 384#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32_47 : BitVec 32 := 512#32
  let v77 : BitVec 32 := Scalar.muli v9 c512_i32_47
  let v78 : Index := Scalar.indexCast v77
  ![0, 384, v78.toNat]
def k0_dev5 (d0 : Dev nD) : Nat :=
  let c0_i32_53 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_52 : BitVec 32 := 8#32
  let v85 : BitVec 32 := Scalar.muli v9 c8_i32_52
  let v86 : BitVec 32 := Scalar.addi c0_i32_53 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v87 : BitVec 32 := Scalar.muli v5 c4_i32_54
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v89 : BitVec 32 := Scalar.muli v8 c1_i32_55
  let v90 : BitVec 32 := Scalar.addi v88 v89
  v90.toNat
def k0_off5 (d0 : Dev nD) : Fin 3 → Nat :=
  let c0_70 : Index := 0#32
  let c0_71 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_69 : BitVec 32 := 512#32
  let v107 : BitVec 32 := Scalar.muli v2 c512_i32_69
  let v108 : Index := Scalar.indexCast v107
  ![0, 0, v108.toNat]
def k0_off6 (d0 : Dev nD) : Fin 3 → Nat :=
  let c0_87 : Index := 0#32
  let c128_88 : Index := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_86 : BitVec 32 := 512#32
  let v125 : BitVec 32 := Scalar.muli v2 c512_i32_86
  let v126 : Index := Scalar.indexCast v125
  ![0, 128, v126.toNat]
def k0_off7 (d0 : Dev nD) : Fin 3 → Nat :=
  let c0_104 : Index := 0#32
  let c256_105 : Index := 256#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_103 : BitVec 32 := 512#32
  let v143 : BitVec 32 := Scalar.muli v2 c512_i32_103
  let v144 : Index := Scalar.indexCast v143
  ![0, 256, v144.toNat]
def k0_off8 (d0 : Dev nD) : Fin 3 → Nat :=
  let c0_121 : Index := 0#32
  let c384_122 : Index := 384#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_120 : BitVec 32 := 512#32
  let v161 : BitVec 32 := Scalar.muli v2 c512_i32_120
  let v162 : Index := Scalar.indexCast v161
  ![0, 384, v162.toNat]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S1x128x512 : 0 < S1x128x512.numel
  shapeCasts_S1x128x512_S128x512 : S1x128x512.ShapeCasts S128x512
  bitsLt_bf16_f32 : FTy.bits .bf16 < FTy.bits .f32
  inb_S512x512_S128x512_0_0 : ∀ a, (![0, 0] : Fin 2 → Nat) a + S128x512.size a ≤ S512x512.size a
  h_S128x512 : 0 < S128x512.numel
  shapeCasts_S128x512_S128x512 : S128x512.ShapeCasts S128x512
  packedbf16_S512x512_S128x512_0_0 : (Rect.unit (s := S512x512) ![0, 0] S128x512.size inb_S512x512_S128x512_0_0).PackedRows (EltTy.packing .bf16)
  inb_S4_S1_0 : ∀ a, (![0] : Fin 1 → Nat) a + S1.size a ≤ S4.size a
  squeezes_S1_S_ : S1.Squeezes S_
  wordsbf16_S512x512_S128x512_0_0 : (Rect.unit (s := S512x512) ![0, 0] S128x512.size inb_S512x512_S128x512_0_0).WholeWords (EltTy.packing .bf16)
  inb_S512x512_S128x512_128_0 : ∀ a, (![128, 0] : Fin 2 → Nat) a + S128x512.size a ≤ S512x512.size a
  packedbf16_S512x512_S128x512_128_0 : (Rect.unit (s := S512x512) ![128, 0] S128x512.size inb_S512x512_S128x512_128_0).PackedRows (EltTy.packing .bf16)
  inb_S4_S1_1 : ∀ a, (![1] : Fin 1 → Nat) a + S1.size a ≤ S4.size a
  wordsbf16_S512x512_S128x512_128_0 : (Rect.unit (s := S512x512) ![128, 0] S128x512.size inb_S512x512_S128x512_128_0).WholeWords (EltTy.packing .bf16)
  inb_S512x512_S128x512_256_0 : ∀ a, (![256, 0] : Fin 2 → Nat) a + S128x512.size a ≤ S512x512.size a
  packedbf16_S512x512_S128x512_256_0 : (Rect.unit (s := S512x512) ![256, 0] S128x512.size inb_S512x512_S128x512_256_0).PackedRows (EltTy.packing .bf16)
  inb_S4_S1_2 : ∀ a, (![2] : Fin 1 → Nat) a + S1.size a ≤ S4.size a
  wordsbf16_S512x512_S128x512_256_0 : (Rect.unit (s := S512x512) ![256, 0] S128x512.size inb_S512x512_S128x512_256_0).WholeWords (EltTy.packing .bf16)
  inb_S512x512_S128x512_384_0 : ∀ a, (![384, 0] : Fin 2 → Nat) a + S128x512.size a ≤ S512x512.size a
  packedbf16_S512x512_S128x512_384_0 : (Rect.unit (s := S512x512) ![384, 0] S128x512.size inb_S512x512_S128x512_384_0).PackedRows (EltTy.packing .bf16)
  inb_S4_S1_3 : ∀ a, (![3] : Fin 1 → Nat) a + S1.size a ≤ S4.size a
  wordsbf16_S512x512_S128x512_384_0 : (Rect.unit (s := S512x512) ![384, 0] S128x512.size inb_S512x512_S128x512_384_0).WholeWords (EltTy.packing .bf16)
  hcc0_scratch2 : 2 + S4.numel ≤ 10
  hcc0_scratch3 : 6 + S4.numel ≤ 10
  k0_dev1_lt : ∀ d0 : Dev nD, (k0_dev1 d0) < nD
  k0_off1_inb : ∀ d0 : Dev nD, ∀ a, (k0_off1 d0) a + S1x128x512.size a ≤ S1x512x1024.size a
  k0_dev2_lt : ∀ d0 : Dev nD, (k0_dev2 d0) < nD
  k0_off2_inb : ∀ d0 : Dev nD, ∀ a, (k0_off2 d0) a + S1x128x512.size a ≤ S1x512x1024.size a
  k0_dev3_lt : ∀ d0 : Dev nD, (k0_dev3 d0) < nD
  k0_off3_inb : ∀ d0 : Dev nD, ∀ a, (k0_off3 d0) a + S1x128x512.size a ≤ S1x512x1024.size a
  k0_dev4_lt : ∀ d0 : Dev nD, (k0_dev4 d0) < nD
  k0_off4_inb : ∀ d0 : Dev nD, ∀ a, (k0_off4 d0) a + S1x128x512.size a ≤ S1x512x1024.size a
  k0_dev5_lt : ∀ d0 : Dev nD, (k0_dev5 d0) < nD
  k0_off5_inb : ∀ d0 : Dev nD, ∀ a, (k0_off5 d0) a + S1x128x512.size a ≤ S1x512x1024.size a
  k0_off6_inb : ∀ d0 : Dev nD, ∀ a, (k0_off6 d0) a + S1x128x512.size a ≤ S1x512x1024.size a
  k0_off7_inb : ∀ d0 : Dev nD, ∀ a, (k0_off7 d0) a + S1x128x512.size a ≤ S1x512x1024.size a
  k0_off8_inb : ∀ d0 : Dev nD, ∀ a, (k0_off8 d0) a + S1x128x512.size a ≤ S1x512x1024.size a
  hstage0_0 : ∀ j, (stage0_0 j).IsWhole
  hstage0_1 : ∀ j, (stage0_1 j).IsWhole

variable [Facts₀]

abbrev cc0_scratch2 : DmaSems sig S4 := SemArray.consecutive 2 S4 hcc0_scratch2
abbrev cc0_scratch3 : DmaSems sig S4 := SemArray.consecutive 6 S4 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x512x1024_S512x1024_d0 : S2x512x1024.ReducesTo [0] S512x1024
  h_S_ : 0 < S_.numel

variable [Facts₀]

class Facts : Prop extends Facts₀ where

variable [Facts]
-- ==== Proof.KernelHand.Proto.lean ====
import proofs.«901036_g7700000000001037_dist_rs_v7x_xyz2x2x4_x_m512_n512_f32_1_alg».proof.Proof.Gen.Kernel
import proofs.«901036_g7700000000001037_dist_rs_v7x_xyz2x2x4_x_m512_n512_f32_1_alg».proof.Proof.Gen.Kernel.Skeleton
import proofs.«901036_g7700000000001037_dist_rs_v7x_xyz2x2x4_x_m512_n512_f32_1_alg».proof.Proof.Gen.Kernel.Launch
import proofs.«901036_g7700000000001037_dist_rs_v7x_xyz2x2x4_x_m512_n512_f32_1_alg».proof.Proof.Gen.Kernel.Points
import Idealize.ShloMosaic.Lib.Pipeline.Launch
import Idealize.ShloMosaic.Lib.Pipeline.Kit
import Idealize.ShloMosaic.Lib.Ring
import Idealize.ShloMosaic.Lib.Tactic

/-!
# The exchange protocol of the two-device reduce-scatter

Sixteen devices; device `c` and its partner `peer c` (the device whose first mesh coordinate is the other one,
`c ± 8`) exchange halves of their blocks. Each device announces itself on the partner's barrier semaphore, casts
the partner's column half of its block into a send buffer row block by row block (four blocks of 128 rows),
copies each row block into the partner's receive buffer, and adds what it receives to its own column half.

Per device the semaphore cells are: the barrier cell (one unit, paid by the partner's signal, which hands over the
partner's receive buffer), four send cells (one per row block; paid by the device's own copy as the source is read,
handing the source rows back) and four receive cells (paid by the partner's copy as the rows land, handing over the
rows at the partner's cast values). Every cell has one round with one duty.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The device with the other first mesh coordinate: `c + 8` below 8, `c - 8` from 8 on. -/
def peer (c : Dev nD) : Dev nD :=
  ⟨(4 * ((c.val / 4) % 2) + (c.val % 4) + 8) - 8 * (c.val / 8), by have h : c.val < 16 := c.isLt; show _ < 16; omega⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)

def pairing : Dev nD ≃ Dev nD := ⟨peer, peer, peer_peer, peer_peer⟩

/-! ## The memrefs, the row blocks and the cells -/

abbrev xM : Memref sig .tc .vmem S1x512x1024 .f32 := Memref.whole cc0_stg0_0
abbrev oM : Memref sig .tc .vmem S512x512 .f32 := Memref.whole cc0_stg1_0
abbrev sM : Memref sig .tc .vmem S512x512 .bf16 := Memref.whole cc0_scratch0
abbrev cM : Memref sig .tc .vmem S512x512 .bf16 := Memref.whole cc0_scratch1

/-- Row block `k` starts at row `128 k`. -/
abbrev rowOff : Fin 4 → (Fin 2 → ℕ)
  | 0 => ![0, 0] | 1 => ![128, 0] | 2 => ![256, 0] | 3 => ![384, 0]

theorem rowInb (k : Fin 4) : ∀ a, rowOff k a + S128x512.size a ≤ S512x512.size a := by revert k; decide

/-- Row block `k` of a 512 × 512 buffer: 128 whole rows. -/
abbrev rk (k : Fin 4) : Rect S512x512 := Rect.unit (s := S512x512) (rowOff k) S128x512.size (rowInb k)

/-- Row block `k` of the send buffer and of the receive buffer. -/
abbrev sS (k : Fin 4) : Memref sig .tc .vmem S128x512 .bf16 := sM.slice (rk k) (fun _ => rfl)
abbrev cS (k : Fin 4) : Memref sig .tc .vmem S128x512 .bf16 := cM.slice (rk k) (fun _ => rfl)

abbrev barS : Sem sig := (SemArray.scalar (sig.barrier 0 rfl) : Sems sig S_).sem
/-- The send semaphore and the receive semaphore of row block `k`. -/
abbrev sendS : Fin 4 → DmaSem sig
  | 0 => ((cc0_scratch2.slice (Rect.unit (s := S4) ![0] S1.size inb_S4_S1_0)).squeeze S_ squeezes_S1_S_).sem
  | 1 => ((cc0_scratch2.slice (Rect.unit (s := S4) ![1] S1.size inb_S4_S1_1)).squeeze S_ squeezes_S1_S_).sem
  | 2 => ((cc0_scratch2.slice (Rect.unit (s := S4) ![2] S1.size inb_S4_S1_2)).squeeze S_ squeezes_S1_S_).sem
  | 3 => ((cc0_scratch2.slice (Rect.unit (s := S4) ![3] S1.size inb_S4_S1_3)).squeeze S_ squeezes_S1_S_).sem
abbrev recvS : Fin 4 → DmaSem sig
  | 0 => ((cc0_scratch3.slice (Rect.unit (s := S4) ![0] S1.size inb_S4_S1_0)).squeeze S_ squeezes_S1_S_).sem
  | 1 => ((cc0_scratch3.slice (Rect.unit (s := S4) ![1] S1.size inb_S4_S1_1)).squeeze S_ squeezes_S1_S_).sem
  | 2 => ((cc0_scratch3.slice (Rect.unit (s := S4) ![2] S1.size inb_S4_S1_2)).squeeze S_ squeezes_S1_S_).sem
  | 3 => ((cc0_scratch3.slice (Rect.unit (s := S4) ![3] S1.size inb_S4_S1_3)).squeeze S_ squeezes_S1_S_).sem

theorem sendS_val (k : Fin 4) : (sendS k).val = 2 + k.val := by revert k; decide
theorem recvS_val (k : Fin 4) : (recvS k).val = 6 + k.val := by revert k; decide

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- One copy's credit: the words of a row block. -/
abbrev N : ℕ := (cS 0).view.dmaCredit
theorem N_pos : 0 < N := View.dmaCredit_pos _ (by decide)
theorem N_eq (k : Fin 4) : (cS k).view.dmaCredit = N := by revert k; decide

/-! ## Contents -/

/-- The device's block of `x` as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- A 128-row, 512-column piece of the staged block. -/
def xld (c : Dev nD) (off : Fin 3 → ℕ) (inb : ∀ a, off a + S1x128x512.size a ≤ S1x512x1024.size a) : Vec F S1x128x512 .f32 :=
  (xM : Memref sig .tc .vmem S1x512x1024 .f32).view.readAt (Elt F) (Rect.unit (s := S1x512x1024) off S1x128x512.size inb).toLoadRect (xstg m ρ c)

/-- What device `c` sends in row block `k`: the partner's column half of its rows, cast. -/
def sv (c : Dev nD) : Fin 4 → FVec F S128x512 .bf16
  | 0 => k0_pay1 (xld m ρ c (k0_off1 c) (k0_off1_inb c))
  | 1 => k0_pay2 (xld m ρ c (k0_off2 c) (k0_off2_inb c))
  | 2 => k0_pay4 (k0_pay3 (xld m ρ c (k0_off3 c) (k0_off3_inb c)))
  | 3 => k0_pay5 (xld m ρ c (k0_off4 c) (k0_off4_inb c))

/-- What device `c` stores in row block `k` of its result: its own column half of the rows plus what the partner sent. -/
def ov (c : Dev nD) : Fin 4 → FVec F S128x512 .f32
  | 0 => k0_pay6 (xld m ρ c (k0_off5 c) (k0_off5_inb c)) (sv m ρ (peer c) 0)
  | 1 => k0_pay7 (xld m ρ c (k0_off6 c) (k0_off6_inb c)) (sv m ρ (peer c) 1)
  | 2 => k0_pay8 (xld m ρ c (k0_off7 c) (k0_off7_inb c)) (sv m ρ (peer c) 2)
  | 3 => k0_pay9 (xld m ρ c (k0_off8 c) (k0_off8_inb c)) (sv m ρ (peer c) 3)

/-- The device's result block: the four row blocks stored one after the other (over contents that no longer show). -/
def outAt (c : Dev nD) : (cc0_stg1_0 : Ref sig .tc).ty.Contents (Elt F) :=
  (oM : Memref sig .tc .vmem S512x512 .f32).view.read (Elt F)
    ((oM : Memref sig .tc .vmem S512x512 .f32).view.writes (Elt F) (oM : Memref sig .tc .vmem S512x512 .f32).view.junk
      [⟨rk 3, ov m ρ c 3⟩, ⟨rk 2, ov m ρ c 2⟩, ⟨rk 1, ov m ρ c 1⟩, ⟨rk 0, ov m ρ c 0⟩])

/-! ## Ownership -/

/-- Row block `k` of the send buffer at contents `f`; of the receive buffer; the whole buffers. -/
def sPts (c : Dev nD) (k : Fin 4) (f : Buf (Elt F) ((sS k).view.loc (c : Thread nD τ))) : sProp 𝕄 :=
  (sS k).view.loc (c : Thread nD τ) ↦[(sS k).view.set]{fullShare} f
def cPts (c : Dev nD) (k : Fin 4) (f : Buf (Elt F) ((cS k).view.loc (c : Thread nD τ))) : sProp 𝕄 :=
  (cS k).view.loc (c : Thread nD τ) ↦[(cS k).view.set]{fullShare} f
def sAll (c : Dev nD) (f : Buf (Elt F) ((c : Thread nD τ).loc cc0_scratch0)) : sProp 𝕄 :=
  ((c : Thread nD τ).loc cc0_scratch0) ↦{fullShare} f
def cAll (c : Dev nD) (f : Buf (Elt F) ((c : Thread nD τ).loc cc0_scratch1)) : sProp 𝕄 :=
  ((c : Thread nD τ).loc cc0_scratch1) ↦{fullShare} f

/-! ## The schedule -/

/-- The partner's signal hands `c` the partner's receive buffer. -/
def barPay (c : Dev nD) : sProp 𝕄 := iprop(∃ f, cAll (peer c) f)
/-- The copy's source rows come back to the sender (their contents no longer matter). -/
def sendPay (c : Dev nD) (k : Fin 4) : sProp 𝕄 := iprop(∃ f, sPts c k f)
/-- The partner's copy lands the partner's cast rows. -/
def recvPay (c : Dev nD) (k : Fin 4) : sProp 𝕄 :=
  iprop(∃ f, ⌜(cS k).view.read (Elt F) f = sv m ρ (peer c) k⌝ ∗ cPts c k f)

/-- The payload by semaphore: the barrier (the one regular semaphore), send semaphores 2–5, receive semaphores 6–9. -/
def payOf (c : Dev nD) : SemLoc sig → sProp 𝕄
  | .reg _ => barPay c
  | .dma q => if h : 2 ≤ q.val ∧ q.val < 6 then sendPay c ⟨q.val - 2, by omega⟩
      else if h : 6 ≤ q.val ∧ q.val < 10 then recvPay m ρ c ⟨q.val - 6, by omega⟩ else iprop(emp)

/-- The exchange's cells: the barrier and DMA semaphores 2–9 of a TensorCore. -/
def IsMine (g : GSem nD τ sig) : Prop := g.1.2 = .tc ∧ (match g.2 with | .reg _ => True | .dma q => 2 ≤ q.val)
instance (g : GSem nD τ sig) : Decidable (IsMine g) := by unfold IsMine; cases g.2 <;> infer_instance

/-- One round, one duty per cell: a barrier cell's of one unit, a send or receive cell's of a row block's credit. -/
def rd : Rounds.Schedule (GSem nD τ sig) Bool 𝕄 where
  duties g r := if r = 0 ∧ IsMine g then {false} else ∅
  unitless _ := False
  amount g _ _ := match g.2 with | .reg _ => 1 | .dma _ => N
  payload g _ _ := payOf m ρ g.1.1 g.2
  amount_pos g _ _ _ := by
    cases g.2 with
    | reg _ => exact Nat.one_pos
    | dma _ => exact N_pos

instance rd_payload_storable (g : GSem nD τ sig) (r : ℕ) (d : Bool) :
    BI.Storable (upEmb : UEmb _ 𝕄) ((rd (F := F) m ρ).payload g r d) := by
  show BI.Storable upEmb (payOf m ρ g.1.1 g.2)
  unfold payOf barPay sendPay recvPay sPts cPts cAll
  cases g.2 with
  | reg _ => dsimp only; infer_instance
  | dma q => dsimp only; (repeat' split) <;> infer_instance

section Sched
variable (c : Dev nD) (k : Fin 4)

theorem mine_bar : IsMine (barCell c) := ⟨rfl, trivial⟩
theorem mine_send : IsMine (sendCell c k) := ⟨rfl, by show 2 ≤ (sendS k).val; rw [sendS_val]; omega⟩
theorem mine_recv : IsMine (recvCell c k) := ⟨rfl, by show 2 ≤ (recvS k).val; rw [recvS_val]; omega⟩

theorem duties_bar : (rd (F := F) m ρ).duties (barCell c) 0 = {false} := by dsimp only [rd]; exact if_pos ⟨rfl, mine_bar c⟩
theorem duties_send : (rd (F := F) m ρ).duties (sendCell c k) 0 = {false} := by dsimp only [rd]; exact if_pos ⟨rfl, mine_send c k⟩
theorem duties_recv : (rd (F := F) m ρ).duties (recvCell c k) 0 = {false} := by dsimp only [rd]; exact if_pos ⟨rfl, mine_recv c k⟩
theorem duties_later (g : GSem nD τ sig) : ∀ r, 1 ≤ r → (rd (F := F) m ρ).duties g r = ∅ :=
  fun r hr => by dsimp only [rd]; rw [if_neg fun h => by omega]

theorem amount_bar (d : Bool) : (rd (F := F) m ρ).amount (barCell c) 0 d = 1 := rfl
theorem amount_send (d : Bool) : (rd (F := F) m ρ).amount (sendCell c k) 0 d = N := rfl
theorem amount_recv (d : Bool) : (rd (F := F) m ρ).amount (recvCell c k) 0 d = N := rfl

theorem expect_bar : (rd (F := F) m ρ).expect (barCell c) 0 = 1 := by
  unfold Schedule.expect Schedule.amountOf; rw [duties_bar, Finset.sum_singleton, amount_bar]
theorem expect_send : (rd (F := F) m ρ).expect (sendCell c k) 0 = N := by
  unfold Schedule.expect Schedule.amountOf; rw [duties_send, Finset.sum_singleton, amount_send]
theorem expect_recv : (rd (F := F) m ρ).expect (recvCell c k) 0 = N := by
  unfold Schedule.expect Schedule.amountOf; rw [duties_recv, Finset.sum_singleton, amount_recv]

theorem payload_bar (d : Bool) : (rd (F := F) m ρ).payload (barCell c) 0 d = barPay c := rfl
theorem payload_send (d : Bool) : (rd (F := F) m ρ).payload (sendCell c k) 0 d = sendPay c k := by
  revert k; intro k; fin_cases k <;> rfl
theorem payload_recv (d : Bool) : (rd (F := F) m ρ).payload (recvCell c k) 0 d = recvPay m ρ c k := by
  revert k; intro k; fin_cases k <;> rfl

theorem rest_bar : bigSep ((rd (F := F) m ρ).duties (barCell c) 0 \ ∅) (fun d => (rd (F := F) m ρ).payload (barCell c) 0 d) = barPay c := by
  rw [Finset.sdiff_empty, duties_bar, bigSep_singleton, payload_bar]
theorem rest_send : bigSep ((rd (F := F) m ρ).duties (sendCell c k) 0 \ ∅) (fun d => (rd (F := F) m ρ).payload (sendCell c k) 0 d) = sendPay c k := by
  rw [Finset.sdiff_empty, duties_send, bigSep_singleton, payload_send]
theorem rest_recv : bigSep ((rd (F := F) m ρ).duties (recvCell c k) 0 \ ∅) (fun d => (rd (F := F) m ρ).payload (recvCell c k) 0 d) = recvPay m ρ c k := by
  rw [Finset.sdiff_empty, duties_recv, bigSep_singleton, payload_recv]

end Sched

/-! ## What each device owes at launch; the levels -/

/-- Device `c` owes its partner's receive cell `k` one row block's credit, -/
def Orecv (c : Dev nD) (k : Fin 4) : CellTallies nD τ sig Unit := tallyAt (recvCell (peer c) k) () N
/-- what is left to pay before the third, the second, the first copy, -/
def O₃ (c : Dev nD) : CellTallies nD τ sig Unit := Orecv c 3 + Orecv c 2
def O₂ (c : Dev nD) : CellTallies nD τ sig Unit := O₃ c + Orecv c 1
def O₁ (c : Dev nD) : CellTallies nD τ sig Unit := O₂ c + Orecv c 0
/-- and, at launch, also the unit on the partner's barrier cell, summed so that each payment peels the last summand. -/
def O₀ (c : Dev nD) : CellTallies nD τ sig Unit := O₁ c + tallyAt (barCell (peer c)) () 1

def L (g : GSem nD τ sig) : Finset Unit := if g.1.2 = .tc then {()} else ∅
/-- Barrier cells at level 1, receive cells at 2, everything else (staging, send) at 0. -/
def lv (g : GSem nD τ sig) (_ : Unit) : ℕ := match g.2 with | .reg _ => 1 | .dma q => if 6 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (k : Fin 4) : lv (recvCell c k) () = 2 := by
  show (if 6 ≤ (recvS k).val then 2 else 0) = 2
  rw [recvS_val, if_pos (by omega)]

theorem O₁_pos {c : Dev nD} {g : GSem nD τ sig} {u : Unit} (h : 0 < O₁ c g u) : ∃ k, g = recvCell (peer c) k := by
  unfold O₁ O₂ O₃ Orecv at h
  rcases Pipeline.add_pos_cases h with h | h
  · rcases Pipeline.add_pos_cases h with h | h
    · rcases Pipeline.add_pos_cases h with h | h
      · exact ⟨3, (Pipeline.tallyAt_pos h).1⟩
      · exact ⟨2, (Pipeline.tallyAt_pos h).1⟩
    · exact ⟨1, (Pipeline.tallyAt_pos h).1⟩
  · exact ⟨0, (Pipeline.tallyAt_pos h).1⟩

theorem O₀_pos {c : Dev nD} {g : GSem nD τ sig} {u : Unit} (h : 0 < O₀ c g u) :
    (∃ k, g = recvCell (peer c) k) ∨ g = barCell (peer c) := by
  unfold O₀ at h
  rcases Pipeline.add_pos_cases h with h | h
  · exact .inl (O₁_pos h)
  · exact .inr (Pipeline.tallyAt_pos h).1

/-- A staging wait (a DMA semaphore below the receive ones) sits below everything a device owes. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; show (if 6 ≤ q.val then 2 else 0) ≤ 0; rw [if_neg (by omega)])
      (fun g u hg => by
        rcases O₀_pos hg with ⟨k, rfl⟩ | rfl
        · rw [lv_recv]; decide
        · rw [lv_bar]; decide)
  · rw [MayWait_zero]; iintro -; iempintro

/-- At its barrier wait a device owes the four receive credits only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp]; exact le_rfl)
    (fun g u hg => by obtain ⟨k, rfl⟩ := O₁_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at (per device:
    0 the barrier, 1–4 the send cells, 5–8 the receive cells): its own nine, its partner's barrier cell (its signal) and
    its partner's four receive cells (its copies). -/
def invs (K : Dev nD × Fin 9 → ℕ) (c : Dev nD) : sProp 𝕄 :=
  iprop(cellInv ER (rd m ρ) (K (c, 0)) (barCell c)
    ∗ cellInv ER (rd m ρ) (K (c, 1)) (sendCell c 0) ∗ cellInv ER (rd m ρ) (K (c, 2)) (sendCell c 1)
    ∗ cellInv ER (rd m ρ) (K (c, 3)) (sendCell c 2) ∗ cellInv ER (rd m ρ) (K (c, 4)) (sendCell c 3)
    ∗ cellInv ER (rd m ρ) (K (c, 5)) (recvCell c 0) ∗ cellInv ER (rd m ρ) (K (c, 6)) (recvCell c 1)
    ∗ cellInv ER (rd m ρ) (K (c, 7)) (recvCell c 2) ∗ cellInv ER (rd m ρ) (K (c, 8)) (recvCell c 3)
    ∗ cellInv ER (rd m ρ) (K (peer c, 0)) (barCell (peer c))
    ∗ cellInv ER (rd m ρ) (K (peer c, 5)) (recvCell (peer c) 0) ∗ cellInv ER (rd m ρ) (K (peer c, 6)) (recvCell (peer c) 1)
    ∗ cellInv ER (rd m ρ) (K (peer c, 7)) (recvCell (peer c) 2) ∗ cellInv ER (rd m ρ) (K (peer c, 8)) (recvCell (peer c) 3))

instance invs_persistent (K : Dev nD × Fin 9 → ℕ) (c : Dev nD) : BI.Persistent (invs m ρ K c) := by unfold invs; infer_instance

/-- Device `c`'s positions at round 0 of its nine cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0 ∗ atPos ER (sendCell c 3) 0 ∅ 0
    ∗ atPos ER (recvCell c 0) 0 ∅ 0 ∗ atPos ER (recvCell c 1) 0 ∅ 0 ∗ atPos ER (recvCell c 2) 0 ∅ 0 ∗ atPos ER (recvCell c 3) 0 ∅ 0)

/-- That round 0 is reached of the nine cells device `c` pays: its partner's barrier and receive cells, its own send cells. -/
def reacheds (c : Dev nD) : sProp 𝕄 :=
  iprop(reached ER (barCell (peer c)) 0
    ∗ reached ER (recvCell (peer c) 0) 0 ∗ reached ER (recvCell (peer c) 1) 0 ∗ reached ER (recvCell (peer c) 2) 0 ∗ reached ER (recvCell (peer c) 3) 0
    ∗ reached ER (sendCell c 0) 0 ∗ reached ER (sendCell c 1) 0 ∗ reached ER (sendCell c 2) 0 ∗ reached ER (sendCell c 3) 0)

instance reacheds_persistent (c : Dev nD) : BI.Persistent (reacheds (F := F) c) := by unfold reacheds; infer_instance

/-- The tokens of the nine duties device `c` pays. -/
def payToks (c : Dev nD) : sProp 𝕄 :=
  iprop(dutyTok ER (barCell (peer c)) 0 false
    ∗ dutyTok ER (recvCell (peer c) 0) 0 false ∗ dutyTok ER (recvCell (peer c) 1) 0 false ∗ dutyTok ER (recvCell (peer c) 2) 0 false ∗ dutyTok ER (recvCell (peer c) 3) 0 false
    ∗ dutyTok ER (sendCell c 0) 0 false ∗ dutyTok ER (sendCell c 1) 0 false ∗ dutyTok ER (sendCell c 2) 0 false ∗ dutyTok ER (sendCell c 3) 0 false)

/-- The exchange's ghost state device `c` starts from. -/
def ghost (K : Dev nD × Fin 9 → ℕ) (c : Dev nD) : sProp 𝕄 :=
  iprop(invs m ρ K c ∗ poss c ∗ reacheds c ∗ payToks c)

/-- The credit dealt to device `c` at launch: its barrier's unit and its four receive cells' credits. -/
def creds (c : Dev nD) : sProp 𝕄 :=
  iprop(cred (tallyAt (barCell c) () 1)
    ∗ cred (tallyAt (recvCell c 0) () N) ∗ cred (tallyAt (recvCell c 1) () N) ∗ cred (tallyAt (recvCell c 2) () N) ∗ cred (tallyAt (recvCell c 3) () N))

/-- What device `c`'s body starts from beside its buffers. -/
def start (c : Dev nD) : sProp 𝕄 :=
  iprop((∃ K, ghost m ρ K c) ∗ creds c ∗ levAts L lv)

def Φ₀ (c : Dev nD) : sProp 𝕄 := iprop(start m ρ c ∗ (∃ f, sAll c f) ∗ (∃ f, cAll c f))
/-- After the point: the two scratch buffers whole again, the eight own cells at zero, closed. -/
def Φ₁ (c : Dev nD) : sProp 𝕄 :=
  iprop((∃ f, sAll c f) ∗ (∃ f, cAll c f)
    ∗ semVal (sendCell c 0) 0 ∗ semVal (sendCell c 1) 0 ∗ semVal (sendCell c 2) 0 ∗ semVal (sendCell c 3) 0
    ∗ semVal (recvCell c 0) 0 ∗ semVal (recvCell c 1) 0 ∗ semVal (recvCell c 2) 0 ∗ semVal (recvCell c 3) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The library's body obligation at the one point, spelt out. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelProof
end
-- ==== Proof.KernelHand.Launch.lean ====
import proofs.«901036_g7700000000001037_dist_rs_v7x_xyz2x2x4_x_m512_n512_f32_1_alg».proof.Proof.KernelHand.Proto

/-!
# The launch of the two-device exchange

Every device's nine exchange cells (its barrier cell, its four send cells, its four receive cells) are funded at
launch from one element of the exchange's algebra: the round state of each cell at counter zero, the owner's position,
the record that round 0 is reached, and one token per cell for its one duty. The counters at zero arrive with the
launch (the eight DMA semaphores are the kernel's own scoped ones, the barrier is the one unscoped semaphore), so each
cell's invariant is allocated in one global step; the tokens are then dealt to the devices that pay the duties: the
barrier's and the four receive cells' tokens go to the partner, the four send cells' tokens stay. The launch credit of
a device is what all devices owe its cells: one unit on its barrier cell and a row block's credit on each receive cell,
each owed by its partner alone.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, enumerated -/

/-- The kernel's own scoped semaphores: the four send semaphores, then the four receive semaphores. -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)

/-- A device's nine exchange semaphores: the barrier, the four send semaphores, the four receive semaphores. -/
abbrev csem : Fin 9 → SemLoc sig := fun
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)

/-- Cell `k` of device `c`. -/
abbrev kcell (ck : Dev nD × Fin 9) : GSem nD τ sig := ((ck.1 : Thread nD τ), csem ck.2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- All the exchange's cells. -/
def exCells : Finset (GSem nD τ sig) := Finset.univ.map ⟨kcell, kcell_injective⟩

/-- The one duty of each cell's round 0. -/
abbrev tokOf (ck : Dev nD × Fin 9) : GSem nD τ sig × ℕ × Bool := (kcell ck, 0, false)
theorem tokOf_injective : Function.Injective (tokOf : Dev nD × Fin 9 → GSem nD τ sig × ℕ × Bool) :=
  fun a b h => kcell_injective (congrArg Prod.fst h)
def exToks : Finset (GSem nD τ sig × ℕ × Bool) := Finset.univ.map ⟨tokOf, tokOf_injective⟩

/-- The launch element: the pipeline's cells and tokens, and the exchange's. -/
def u₀ : UU :=
  (initOf (Pipeline.cells cfgs cellOf_inj) (Pipeline.launchToks cfgs cellOf_inj), initOf exCells exToks)

/-- The duty tokens of device `c`'s own nine cells. -/
def toks (c : Dev nD) : sProp 𝕄 := bigSep Finset.univ fun k : Fin 9 => dutyTok ER (kcell (c, k)) 0 false

/-- What the launch element deals device `c`: its cells' round states, positions, reached records and tokens. -/
def G (c : Dev nD) : sProp 𝕄 :=
  iprop((bigSep Finset.univ fun k : Fin 9 => roundState ER (rd m ρ) (kcell (c, k)) 0)
    ∗ (bigSep Finset.univ fun k : Fin 9 => iprop(atPos ER (kcell (c, k)) 0 ∅ 0 ∗ reached ER (kcell (c, k)) 0)) ∗ toks c)

/-- What the global step makes of it: the ghost state the device's body starts from, at some names. -/
def G' (c : Dev nD) : sProp 𝕄 := iprop(∃ K, ghost m ρ K c)

/-! ## Funding -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The exchange's half of the launch element is every device's share. -/
theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 9 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (rd m ρ) exCells exToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The eight DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨⟨H1, H2, H3, H4, H5, H6, H7, H8⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- With its nine counters at zero, a device's nine cells' invariants are allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records: every cell's invariant at its name, and that round 0 of every cell is reached. -/
def records (K : Dev nD × Fin 9 → ℕ) : sProp 𝕄 :=
  iprop((bigSep Finset.univ fun ck : Dev nD × Fin 9 => cellInv ER (rd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem inv_at (K : Dev nD × Fin 9 → ℕ) (ck : Dev nD × Fin 9) :
    (bigSep Finset.univ fun ck : Dev nD × Fin 9 => (cellInv ER (rd m ρ) (K ck) (kcell ck) : sProp 𝕄)) ⊢ cellInv ER (rd m ρ) (K ck) (kcell ck) :=
  bigSep_elim (Finset.mem_univ ck)
omit [FloatOps F] in
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss c ∗ payToks c)

theorem ghost_intro (K : Dev nD × Fin 9 → ℕ) (c : Dev nD) : iprop(records m ρ K ∗ linear c) ⊢ G' m ρ c := by
  unfold records linear G' ghost invs reacheds
  iintro ⟨⟨#HI, #HR⟩, Hp, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (c, 7)); iexact HI
    isplitr; · iapply (inv_at m ρ K (c, 8)); iexact HI
    isplitr; · iapply (inv_at m ρ K (peer c, 0)); iexact HI
    isplitr; · iapply (inv_at m ρ K (peer c, 5)); iexact HI
    isplitr; · iapply (inv_at m ρ K (peer c, 6)); iexact HI
    isplitr; · iapply (inv_at m ρ K (peer c, 7)); iexact HI
    iapply (inv_at m ρ K (peer c, 8)); iexact HI
  isplitl [Hp]; · iexact Hp
  isplitr
  · isplitr; · iapply (reached_at (F := F) (peer c, 0)); iexact HR
    isplitr; · iapply (reached_at (F := F) (peer c, 5)); iexact HR
    isplitr; · iapply (reached_at (F := F) (peer c, 6)); iexact HR
    isplitr; · iapply (reached_at (F := F) (peer c, 7)); iexact HR
    isplitr; · iapply (reached_at (F := F) (peer c, 8)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 4)); iexact HR
  iexact Ht

omit [FloatOps F] in
/-- The tokens dealt: a barrier cell's and a receive cell's token to the partner (who signals, who copies), a send
    cell's token stays (the device's own copy pays it). -/
theorem toks_around : (bigSep Finset.univ fun c : Dev nD => (toks c : sProp 𝕄)) ⊢ bigSep Finset.univ fun c : Dev nD => payToks c := by
  have hL : (bigSep Finset.univ fun c : Dev nD => (toks c : sProp 𝕄))
      = bigSep Finset.univ fun c : Dev nD => iprop(dutyTok ER (barCell c) 0 false
        ∗ dutyTok ER (sendCell c 0) 0 false ∗ dutyTok ER (sendCell c 1) 0 false ∗ dutyTok ER (sendCell c 2) 0 false ∗ dutyTok ER (sendCell c 3) 0 false
        ∗ dutyTok ER (recvCell c 0) 0 false ∗ dutyTok ER (recvCell c 1) 0 false ∗ dutyTok ER (recvCell c 2) 0 false ∗ dutyTok ER (recvCell c 3) 0 false) :=
    bigSep_congr fun c _ => by unfold toks; rw [bigSep_fin9]
  rw [hL]
  unfold payToks
  simp only [bigSep_sep']
  rw [bigSep_univ_equiv pairing (fun c : Dev nD => (dutyTok ER (barCell c) 0 false : sProp 𝕄)),
    bigSep_univ_equiv pairing (fun c : Dev nD => (dutyTok ER (recvCell c 0) 0 false : sProp 𝕄)),
    bigSep_univ_equiv pairing (fun c : Dev nD => (dutyTok ER (recvCell c 1) 0 false : sProp 𝕄)),
    bigSep_univ_equiv pairing (fun c : Dev nD => (dutyTok ER (recvCell c 2) 0 false : sProp 𝕄)),
    bigSep_univ_equiv pairing (fun c : Dev nD => (dutyTok ER (recvCell c 3) 0 false : sProp 𝕄))]
  iintro ⟨HB, HS0, HS1, HS2, HS3, HR0, HR1, HR2, HR3⟩
  isplitl [HB]; · iexact HB
  isplitl [HR0]; · iexact HR0
  isplitl [HR1]; · iexact HR1
  isplitl [HR2]; · iexact HR2
  isplitl [HR3]; · iexact HR3
  isplitl [HS0]; · iexact HS0
  isplitl [HS1]; · iexact HS1
  isplitl [HS2]; · iexact HS2
  iexact HS3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocated cells regroup into each device's starting ghost state. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (rd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear poss; rw [bigSep_fin9])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owing its partner's receive cell `k` one row block's credit, each device is dealt that credit on its own. -/
theorem cred_recv (k : Fin 4) (c : Dev nD) :
    (Pipeline.launchCred (fun d => Orecv d k) c : sProp 𝕄) ⊢ cred (tallyAt (recvCell c k) () N) :=
  Pipeline.launchCred_tallyAt (.dma (recvS k)) peer peer peer_peer peer_peer () N c

omit [FloatOps F] in
/-- Every device owing its partner's barrier cell one unit, each device is dealt one unit on its own. -/
theorem cred_bar (c : Dev nD) :
    (Pipeline.launchCred (fun d => tallyAt (barCell (peer d)) () 1) c : sProp 𝕄) ⊢ cred (tallyAt (barCell c) () 1) :=
  Pipeline.launchCred_tallyAt (.reg barS) peer peer peer_peer peer_peer () 1 c

omit [FloatOps F] in
/-- The launch credit of device `c`: what its partner owes its barrier cell and its four receive cells. -/
theorem creds_intro (c : Dev nD) : (Pipeline.launchCred O₀ c : sProp 𝕄) ⊢ creds c := by
  have e : (Pipeline.launchCred O₀ c : sProp 𝕄)
      = iprop((((Pipeline.launchCred (fun d => Orecv d 3) c ∗ Pipeline.launchCred (fun d => Orecv d 2) c)
          ∗ Pipeline.launchCred (fun d => Orecv d 1) c) ∗ Pipeline.launchCred (fun d => Orecv d 0) c)
          ∗ Pipeline.launchCred (fun d => tallyAt (barCell (peer d)) () 1) c) := by
    rw [← Pipeline.launchCred_add, ← Pipeline.launchCred_add, ← Pipeline.launchCred_add, ← Pipeline.launchCred_add]
    rfl
  rw [e]
  unfold creds
  iintro ⟨⟨⟨⟨H3, H2⟩, H1⟩, H0⟩, HB⟩
  isplitl [HB]; · iapply (cred_bar (F := F) c); iexact HB
  isplitl [H0]; · iapply (cred_recv (F := F) 0 c); iexact H0
  isplitl [H1]; · iapply (cred_recv (F := F) 1 c); iexact H1
  isplitl [H2]; · iapply (cred_recv (F := F) 2 c); iexact H2
  iapply (cred_recv (F := F) 3 c); iexact H3

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sAll cAll
  iintro ⟨Hs, -, Hs0, Hs1⟩
  isplitl [Hs]; · iexact Hs
  isplitl [Hs0]; · iexact Hs0
  iexact Hs1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ sAll cAll
  iintro ⟨Hs0, Hs1, H1, H2, H3, H4, H5, H6, H7, H8⟩
  isplitr; · iempintro
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hs0]; · iexact Hs0
  iexact Hs1

/-- The pipeline's own waits are on the two staging semaphores, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of sixteen devices, for any float values, from any memory with zero counters: if every device's
    body meets its obligation, every weakly fair execution of the program terminates, and in every final state each
    device's arrays hold what the proof data says they hold after the one point. -/
theorem run_main (hbody : ∀ c : Dev nD, BodyObligation (dats (F := F) m ρ 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

end Cert.KernelProof

end
-- ==== Proof.KernelHand.Arrays.lean ====
import proofs.«901036_g7700000000001037_dist_rs_v7x_xyz2x2x4_x_m512_n512_f32_1_alg».proof.Proof.KernelHand.Proto
import Idealize.ShloMosaic.Lib.Pipeline.Cells

/-!
# The arrays after the run

The pipeline's proof data names each windowed array after the write-backs of the points below a given one.
The grid has a single point. The input window's array is never written, so it ends as it began. The result
window is written back once, at that point, through the rectangle of the array's own sizes at zero offsets:
the array ends holding exactly what the body left in the result staging buffer, the four stored row blocks.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The argument array is an input window's: no point writes it back, so after the run it holds its launch contents. -/
theorem arr_x (c : Dev nD) : (dats (F := F) m ρ 0 c).arrAt (0 : Fin 2) cfg0.N = m ((c : Thread nD τ).loc main_arg0) :=
  (dats (F := F) m ρ 0 c).arrAt_in (0 : Fin 2) rfl _

/-- The result array is written back once, whole, with what the body left in the result staging buffer. -/
theorem arr_out (c : Dev nD) : (dats (F := F) m ρ 0 c).arrAt (1 : Fin 2) cfg0.N = outAt m ρ c := by
  have hN : cfg0.N = (t₀ : Fin cfg0.N).val + 1 := cfg0_N
  have h := (dats (F := F) m ρ 0 c).arrAt_succ (1 : Fin 2) t₀
  rw [flush0_1 t₀, if_pos rfl] at h
  refine (congrArg ((dats (F := F) m ρ 0 c).arrAt (1 : Fin 2)) hN).trans (h.trans ?_)
  refine (Memref.write_access_unit_zero_univ (Elt F) main_v1 (funext fun a => Nat.zero_mul _) _ _ _).trans ?_
  funext j
  dsimp only [dats, Dat.flushed, Window.cut]

/-- info: 'Cert.KernelProof.arr_x' depends on axioms: [propext, Classical.choice, Quot.sound] -/
#guard_msgs in #print axioms arr_x

/-- info: 'Cert.KernelProof.arr_out' depends on axioms: [propext, Classical.choice, Quot.sound] -/
#guard_msgs in #print axioms arr_out

end Cert.KernelProof
end
-- ==== Proof.KernelHand.Body.lean ====
import proofs.«901036_g7700000000001037_dist_rs_v7x_xyz2x2x4_x_m512_n512_f32_1_alg».proof.Proof.KernelHand.Proto

/-!
# One device's body

The body of device `c`, stepped once at a symbolic device from its starting resources to what it leaves: the result
staging buffer at the four row blocks it stored, the two scratch buffers whole again, its eight own cells closed.
-/

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 9 → ℕ)

/-! ## Row blocks of a 512 × 512 buffer: disjoint, covering -/

theorem rowOff_lead (b : Fin 4) : rowOff b (0 : Fin 2) = 128 * b.val := by revert b; decide
theorem rowOff_rest (b : Fin 4) (a : Fin 2) (ha : a ≠ 0) : rowOff b a = 0 := by revert b a; decide

theorem rk_disjoint (k k' : Fin 4) (h : k ≠ k') : Disjoint (rk k).set (rk k').set :=
  Ring.lead_disjoint (s := S512x512) (0 : Fin 2) 128 rowOff S128x512.size rowInb rowOff_lead rfl k k' h

theorem rk_cover : Finset.univ.biUnion (fun k : Fin 4 => (rk k).set) = Finset.univ :=
  Ring.lead_cover (s := S512x512) (0 : Fin 2) 128 rowOff S128x512.size rowInb rowOff_lead rowOff_rest rfl
    (by intro a ha; revert a; decide) (by decide)

theorem sset (k : Fin 4) : (sS k).view.set = (rk k).set := View.set_slice_whole cc0_scratch0 (rk k)
theorem cset (k : Fin 4) : (cS k).view.set = (rk k).set := View.set_slice_whole cc0_scratch1 (rk k)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sPts_eq (c : Dev nD) (k : Fin 4) (f : Buf (Elt F) ((c : Thread nD τ).loc cc0_scratch0)) :
    (sPts c k f : sProp 𝕄) = (((c : Thread nD τ).loc cc0_scratch0) ↦[(rk k).set]{fullShare} f) := by
  unfold sPts; rw [sset]
theorem cPts_eq (c : Dev nD) (k : Fin 4) (f : Buf (Elt F) ((c : Thread nD τ).loc cc0_scratch1)) :
    (cPts c k f : sProp 𝕄) = (((c : Thread nD τ).loc cc0_scratch1) ↦[(rk k).set]{fullShare} f) := by
  unfold cPts; rw [cset]

/-- The send buffer held whole is held row block by row block, -/
theorem sAll_split (c : Dev nD) (f : Buf (Elt F) ((c : Thread nD τ).loc cc0_scratch0)) :
    (sAll c f : sProp 𝕄) = iprop(sPts c 0 f ∗ sPts c 1 f ∗ sPts c 2 f ∗ sPts c 3 f) := by
  simp only [sPts_eq]
  unfold sAll
  rw [Ring.pointsTo_blocks (ℓ := (c : Thread nD τ).loc cc0_scratch0) (fun k : Fin 4 => (rk k).set) rk_disjoint rk_cover f, bigSep_fin4]
/-- and so is the receive buffer. -/
theorem cAll_split (c : Dev nD) (f : Buf (Elt F) ((c : Thread nD τ).loc cc0_scratch1)) :
    (cAll c f : sProp 𝕄) = iprop(cPts c 0 f ∗ cPts c 1 f ∗ cPts c 2 f ∗ cPts c 3 f) := by
  simp only [cPts_eq]
  unfold cAll
  rw [Ring.pointsTo_blocks (ℓ := (c : Thread nD τ).loc cc0_scratch1) (fun k : Fin 4 => (rk k).set) rk_disjoint rk_cover f, bigSep_fin4]

/-- Row blocks held at contents of their own are the buffer held whole at some contents. -/
theorem sAll_join (c : Dev nD) (f0 f1 f2 f3 : Buf (Elt F) ((c : Thread nD τ).loc cc0_scratch0)) :
    iprop(sPts c 0 f0 ∗ sPts c 1 f1 ∗ sPts c 2 f2 ∗ sPts c 3 f3) ⊢ (iprop(∃ g, sAll c g) : sProp 𝕄) := by
  simp only [sPts_eq]
  unfold sAll
  have h := Ring.pointsTo_blocks_join (Ix := Unit) (Name := ℕ) (U := UU) (Lvl := ℕ) (q := fullShare) (ℓ := (c : Thread nD τ).loc cc0_scratch0) (fun k : Fin 4 => (rk k).set) rk_disjoint rk_cover
    (fun k : Fin 4 => match k with | 0 => f0 | 1 => f1 | 2 => f2 | 3 => f3) f0
  rw [bigSep_fin4] at h
  exact h
theorem cAll_join (c : Dev nD) (f0 f1 f2 f3 : Buf (Elt F) ((c : Thread nD τ).loc cc0_scratch1)) :
    iprop(cPts c 0 f0 ∗ cPts c 1 f1 ∗ cPts c 2 f2 ∗ cPts c 3 f3) ⊢ (iprop(∃ g, cAll c g) : sProp 𝕄) := by
  simp only [cPts_eq]
  unfold cAll
  have h := Ring.pointsTo_blocks_join (Ix := Unit) (Name := ℕ) (U := UU) (Lvl := ℕ) (q := fullShare) (ℓ := (c : Thread nD τ).loc cc0_scratch1) (fun k : Fin 4 => (rk k).set) rk_disjoint rk_cover
    (fun k : Fin 4 => match k with | 0 => f0 | 1 => f1 | 2 => f2 | 3 => f3) f0
  rw [bigSep_fin4] at h
  exact h

/-! ## The body -/

def bodyPre (c : Dev nD) : sProp 𝕄 :=
  iprop((ghost m ρ K c ∗ creds c ∗ levAts L lv ∗ (∃ f, sAll c f) ∗ (∃ f, cAll c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- The barrier duties' payload with the buffer spelt out: at the device's own cell the partner's receive buffer, -/
theorem pl_bar (c : Dev nD) (d : Bool) : (rd (F := F) m ρ).payload (barCell c) 0 d
    = iprop(∃ f, ((cM : Memref sig .tc .vmem S512x512 .bf16).view.loc ((peer c : Dev nD) : Thread nD τ)) ↦{fullShare} f) := rfl
/-- at the partner's cell the device's own. -/
theorem pl_barP (c : Dev nD) (d : Bool) : (rd (F := F) m ρ).payload (barCell (peer c)) 0 d
    = iprop(∃ f, ((cM : Memref sig .tc .vmem S512x512 .bf16).view.loc (c : Thread nD τ)) ↦{fullShare} f) := by
  show barPay (peer c) = _
  unfold barPay cAll; rw [peer_peer]

attribute [local sl_rounds high] pl_barP
attribute [local sl_rounds] duties_bar duties_send duties_recv amount_bar amount_send amount_recv pl_bar expect_bar expect_send expect_recv
attribute [local sl_canon] dev1_eq dev2_eq dev3_eq dev4_eq dev5_eq

/-- The copy of row block `k` to the partner `n = peer c`: the source rows hold the cast values `sv c k`, the partner's
    rows are the issuer's outright; the rows land at those values. -/
theorem wp_send_blk (c n : Dev nD) (hn : n = peer c) (k : Fin 4)
    {hsc : ((cS k) : Memref sig (Dev.tc n : Thread nD τ).2.kind .vmem S128x512 .bf16).view.ref.isScScratch = false}
    {hsrc : (sS k).view.WordExact} {hdst : (cS k).view.WordExact}
    {hsem : DmaTarget.Typed .vmem (.dma (recvS k)) (.remote (Dev.tc n : Thread nD τ) (cS k) (.dma (sendS k)) hsc)}
    {α : Type} {Q : α → sProp 𝕄} {kk : PUnit → Prog (TpuEff nD τ sig (Elt F) Λ₀ .tc) α}
    (fs : Buf (Elt F) ((sS k).view.loc (c : Thread nD τ))) (hfs : (sS k).view.read (Elt F) fs = sv m ρ c k)
    (fd : Buf (Elt F) ((cS k).view.loc (peer c : Thread nD τ))) (O' O : CellTallies nD τ sig Unit)
    (hO : O' = O + tallyAt (recvCell (peer c) k) () N) (W : Waits sig Unit) (κs κr : ℕ) :
    iprop(cellInv ER (rd m ρ) κs (sendCell c k) ∗ cellInv ER (rd m ρ) κr (recvCell (peer c) k)
        ∗ sPts c k fs ∗ cPts (peer c) k fd
        ∗ owes (c : Thread nD τ) O' W
        ∗ dutyTok ER (sendCell c k) 0 false ∗ reached ER (sendCell c k) 0
        ∗ dutyTok ER (recvCell (peer c) k) 0 false ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sS k) (.remote (Dev.tc n : Thread nD τ) (cS k) (.dma (sendS k)) hsc) (.dma (recvS k)) hsrc hdst hsem) kk) Q) := by
  subst hn
  unfold sPts cPts
  exact Rounds.wp_send_pointsTo 𝒱₀ ER (rd m ρ) (c : Thread nD τ) none (κ₁ := κs) (κ₂ := κr)
    (r₁ := 0) (r₂ := 0) (d₁ := false) (d₂ := false) (fs := fs) (fd := fd)
    (by rw [duties_send]; exact Finset.mem_singleton_self _) (by rw [duties_recv]; exact Finset.mem_singleton_self _)
    () () N (show (cS k).view.amount (SemLoc.dma (recvS k)) = N from N_eq k) (amount_send m ρ c k false) (amount_recv m ρ (peer c) k false) O hO (W := W)
    (by rw [payload_send]; unfold sendPay sPts; iintro H; iexists fs; iexact H)
    (by
      rw [payload_recv]; unfold recvPay cPts
      iintro H; iexists ((cS k).view.write (Elt F) fd ((sS k).view.read (Elt F) fs) Finset.univ)
      isplitr
      · ipureintro; rw [View.read_write_univ, hfs, peer_peer]
      · iexact H)

/-- A store of a whole row block of the send buffer, the rows held. -/
theorem wp_store_sblk (c : Dev nD) (k : Fin 4) {w : (rk k).shape.Idx → Elt F .bf16}
    {hx : ((sM : Memref sig .tc .vmem S512x512 .bf16).access (rk k)).Stores Finset.univ} {hm : Finset.univ = Finset.univ ∨ ∀ a, (rk k).stride a = 1}
    {α : Type} {Q : α → sProp 𝕄} {kk : PUnit → Prog (TpuEff nD τ sig (Elt F) Λ₀ .tc) α}
    (f : Buf (Elt F) ((c : Thread nD τ).loc cc0_scratch0)) :
    sPts c k f ⊢ iprop((sPts c k ((sS k).view.write (Elt F) f w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM (rk k) w Finset.univ hx hm) kk) Q) := by
  unfold sPts
  exact wp_store 𝒱₀ (c : Thread nD τ) none Set.univ (m := sM) (r := rk k) (Mk := Finset.univ)
    (S := ((sM : Memref sig .tc .vmem S512x512 .bf16).access (rk k)).set) (Finset.Subset.refl _)

/-- A load of a whole row block of the send buffer, the rows held. -/
theorem wp_load_sblk (c : Dev nD) (k : Fin 4) {hl : (sM : Memref sig .tc .vmem S512x512 .bf16).view.LoadsAt (rk k).toLoadRect}
    {α : Type} {Q : α → sProp 𝕄} {kk : ((rk k).shape.Idx → Elt F .bf16) → Prog (TpuEff nD τ sig (Elt F) Λ₀ .tc) α}
    (f : Buf (Elt F) ((c : Thread nD τ).loc cc0_scratch0)) :
    sPts c k f ⊢ iprop((sPts c k f -∗ wp frame (wpE (defs₀ (F := F)) 𝒱₀ (c : Thread nD τ) none) Set.univ (kk ((sS k).view.read (Elt F) f)) Q)
        -∗ wp frame (wpE (defs₀ (F := F)) 𝒱₀ (c : Thread nD τ) none) Set.univ (.op (.load sM (rk k).toLoadRect hl) kk) Q) := by
  unfold sPts
  exact wp_load_rect 𝒱₀ (c : Thread nD τ) none Set.univ (m := sM) (r := rk k) (Finset.Subset.refl _)

/-- A load of a whole row block of the receive buffer, the rows held. -/
theorem wp_load_cblk (c : Dev nD) (k : Fin 4) {hl : (cM : Memref sig .tc .vmem S512x512 .bf16).view.LoadsAt (rk k).toLoadRect}
    {α : Type} {Q : α → sProp 𝕄} {kk : ((rk k).shape.Idx → Elt F .bf16) → Prog (TpuEff nD τ sig (Elt F) Λ₀ .tc) α}
    (f : Buf (Elt F) ((c : Thread nD τ).loc cc0_scratch1)) :
    cPts c k f ⊢ iprop((cPts c k f -∗ wp frame (wpE (defs₀ (F := F)) 𝒱₀ (c : Thread nD τ) none) Set.univ (kk ((cS k).view.read (Elt F) f)) Q)
        -∗ wp frame (wpE (defs₀ (F := F)) 𝒱₀ (c : Thread nD τ) none) Set.univ (.op (.load cM (rk k).toLoadRect hl) kk) Q) := by
  unfold cPts
  exact wp_load_rect 𝒱₀ (c : Thread nD τ) none Set.univ (m := cM) (r := rk k) (Finset.Subset.refl _)

theorem N_eq' (k : Fin 4) : (sS k).view.dmaCredit = N := by revert k; decide

/-- The four row blocks stored over any prior contents of the result buffer leave the closed form: every entry lies in
    one of the four blocks. -/
theorem out_writes_eq (c : Dev nD) (g : (cc0_stg1_0 : Ref sig .tc).ty.Contents (Elt F)) :
    (oM : Memref sig .tc .vmem S512x512 .f32).view.writes (Elt F) g
      [⟨rk 3, ov m ρ c 3⟩, ⟨rk 2, ov m ρ c 2⟩, ⟨rk 1, ov m ρ c 1⟩, ⟨rk 0, ov m ρ c 0⟩] = outAt m ρ c := by
  have hcov : ∀ y : S512x512.Idx, ∃ p ∈ ([⟨rk 3, ov m ρ c 3⟩, ⟨rk 2, ov m ρ c 2⟩, ⟨rk 1, ov m ρ c 1⟩, ⟨rk 0, ov m ρ c 0⟩] : List (View.Piece (Elt F) S512x512 .f32)), y ∈ p.1.set := fun y => by
    have hy : y ∈ Finset.univ.biUnion (fun k : Fin 4 => (rk k).set) := by rw [rk_cover]; exact Finset.mem_univ y
    obtain ⟨k, -, hk⟩ := Finset.mem_biUnion.mp hy
    fin_cases k
    · exact ⟨⟨rk 0, ov m ρ c 0⟩, .tail _ (.tail _ (.tail _ (.head _))), hk⟩
    · exact ⟨⟨rk 1, ov m ρ c 1⟩, .tail _ (.tail _ (.head _)), hk⟩
    · exact ⟨⟨rk 2, ov m ρ c 2⟩, .tail _ (.head _), hk⟩
    · exact ⟨⟨rk 3, ov m ρ c 3⟩, .head _, hk⟩
  unfold outAt
  exact (View.read_whole (Val := Elt F) cc0_stg1_0 _).symm.trans
    (View.read_writes_of_cover (v := (oM : Memref sig .tc .vmem S512x512 .f32).view) (f := g)
      (oM : Memref sig .tc .vmem S512x512 .f32).view (oM : Memref sig .tc .vmem S512x512 .f32).view.junk _ hcov)

/-- The same, the received rows read through what landed. -/
theorem out_final (c : Dev nD) (g : (cc0_stg1_0 : Ref sig .tc).ty.Contents (Elt F))
    (f0 f1 f2 f3 : Buf (Elt F) ((c : Thread nD τ).loc cc0_scratch1))
    (h0 : (cS 0).view.read (Elt F) f0 = sv m ρ (peer c) 0) (h1 : (cS 1).view.read (Elt F) f1 = sv m ρ (peer c) 1)
    (h2 : (cS 2).view.read (Elt F) f2 = sv m ρ (peer c) 2) (h3 : (cS 3).view.read (Elt F) f3 = sv m ρ (peer c) 3) :
    ((oM : Memref sig .tc .vmem S512x512 .f32).access (rk 3)).write (Elt F)
      (((oM : Memref sig .tc .vmem S512x512 .f32).access (rk 2)).write (Elt F)
        (((oM : Memref sig .tc .vmem S512x512 .f32).access (rk 1)).write (Elt F)
          (((oM : Memref sig .tc .vmem S512x512 .f32).access (rk 0)).write (Elt F) g
            (k0_pay6 (xld m ρ c (k0_off5 c) (k0_off5_inb c)) ((cS 0).view.read (Elt F) f0)) Finset.univ)
          (k0_pay7 (xld m ρ c (k0_off6 c) (k0_off6_inb c)) ((cS 1).view.read (Elt F) f1)) Finset.univ)
        (k0_pay8 (xld m ρ c (k0_off7 c) (k0_off7_inb c)) ((cS 2).view.read (Elt F) f2)) Finset.univ)
      (k0_pay9 (xld m ρ c (k0_off8 c) (k0_off8_inb c)) ((cS 3).view.read (Elt F) f3)) Finset.univ = outAt m ρ c := by
  rw [h0, h1, h2, h3]
  exact out_writes_eq m ρ c g

theorem sPts_of (c : Dev nD) (f : Buf (Elt F) ((c : Thread nD τ).loc cc0_scratch0)) :
    (((sM : Memref sig .tc .vmem S512x512 .bf16).view.loc (c : Thread nD τ)) ↦{fullShare} f : sProp 𝕄) = sAll c f := rfl
theorem cPts_of (c : Dev nD) (f : Buf (Elt F) ((c : Thread nD τ).loc cc0_scratch1)) :
    (((cM : Memref sig .tc .vmem S512x512 .bf16).view.loc (c : Thread nD τ)) ↦{fullShare} f : sProp 𝕄) = cAll c f := rfl

set_option maxHeartbeats 4000000 in
/-- The body, from its starting resources to what it leaves: the partner is signalled and handed the receive buffer, the
    four row blocks are cast and copied to the partner once its own signal has arrived, each row block that lands is
    added to the device's own column half and stored, and the copies' sources come back; the result buffer ends at
    `outAt`, the two scratch buffers whole, the eight own cells closed, nothing owed. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs poss reacheds payToks creds
  iintro ⟨⟨⟨⟨⟨#HIb, #HIs0, #HIs1, #HIs2, #HIs3, #HIr0, #HIr1, #HIr2, #HIr3, #HIbP, #HIrP0, #HIrP1, #HIrP2, #HIrP3⟩,
      ⟨HaB, HaS0, HaS1, HaS2, HaS3, HaR0, HaR1, HaR2, HaR3⟩,
      ⟨#HrBP, #HrRP0, #HrRP1, #HrRP2, #HrRP3, #HrS0, #HrS1, #HrS2, #HrS3⟩,
      ⟨HtBP, HtRP0, HtRP1, HtRP2, HtRP3, HtS0, HtS1, HtS2, HtS3⟩⟩,
      ⟨HcB, HcR0, HcR1, HcR2, HcR3⟩, #Hlev, ⟨%fs0, Hsb⟩, ⟨%fc0, Hcm⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁ O₂ O₃ Orecv sAll cAll
  ihave HS := (Entails.of_eq (show (((c : Thread nD τ).loc cc0_scratch0) ↦{fullShare} fs0 : sProp 𝕄) = ((sM : Memref sig .tc .vmem S512x512 .bf16).view.loc (c : Thread nD τ) ↦{fullShare} fs0) from rfl)) $$ Hsb
  ihave HC := (Entails.of_eq (show (((c : Thread nD τ).loc cc0_scratch1) ↦{fullShare} fc0 : sProp 𝕄) = ((cM : Memref sig .tc .vmem S512x512 .bf16).view.loc (c : Thread nD τ) ↦{fullShare} fc0) from rfl)) $$ Hcm
  ihave HX := (Entails.of_eq (show (((c : Thread nD τ).loc cc0_stg0_0) ↦{fullShare} xstg m ρ c : sProp 𝕄) = ((xM : Memref sig .tc .vmem S1x512x1024 .f32).view.loc (c : Thread nD τ) ↦{fullShare} xstg m ρ c) from rfl)) $$ Hx
  ihave HOut := (Entails.of_eq (show (((c : Thread nD τ).loc cc0_stg1_0) ↦{fullShare} g1 : sProp 𝕄) = ((oM : Memref sig .tc .vmem S512x512 .f32).view.loc (c : Thread nD τ) ↦{fullShare} g1) from rfl)) $$ Hout
  have hmw : (levAts L lv : sProp 𝕄) ⊢ MayWait (c : Thread nD τ) (.reg barS) ()
      (tallyAt (recvCell (peer c) 3) () N + tallyAt (recvCell (peer c) 2) () N + tallyAt (recvCell (peer c) 1) () N + tallyAt (recvCell (peer c) 0) () N) := mayWait_bar c
  sl_unfold [cc0_body]
  -- the signal to the partner (handing over the receive buffer), the first row block cast into the send buffer, the barrier wait
  sl_exec (disch := simp only [dev1_eq, dev2_eq, dev3_eq, dev4_eq, dev5_eq])
  -- the partner's receive buffer and the send buffer, row block by row block
  ihave HP := (Entails.of_eq ((cPts_of (F := F) (peer c) HaB_pay1_v).trans (cAll_split (F := F) (peer c) HaB_pay1_v))) $$ HaB_pay1
  icases HP with ⟨HP0, HP1, HP2, HP3⟩
  ihave HS' := (Entails.of_eq ((sPts_of (F := F) c _).trans (sAll_split (F := F) c _))) $$ HS
  icases HS' with ⟨HS0, HS1, HS2, HS3⟩
  -- row block 0 goes to the partner
  iapply (wp_send_blk m ρ c (peer c) rfl 0 _ (View.read_write_univ _ _) HaB_pay1_v _
      (tallyAt (recvCell (peer c) 3) () N + tallyAt (recvCell (peer c) 2) () N + tallyAt (recvCell (peer c) 1) () N) rfl _ (K (c, 1)) (K (peer c, 5))) $$ [HS0 HP0 HO HtS0 HtRP0]
  · isplitr; · iexact HIs0
    isplitr; · iexact HIrP0
    isplitl [HS0]; · iexact HS0
    isplitl [HP0]; · iexact HP0
    isplitl [HO]; · iexact HO
    isplitl [HtS0]; · iexact HtS0
    isplitr; · iexact HrS0
    isplitl [HtRP0]; · iexact HtRP0
    iexact HrRP0
  iintro ⟨HcS0, HO⟩
  simp only [Prog.lift, Prog.bind_op, Prog.bind_ret, Prog.pure_eq_ret]
  -- row block 1: cast, stored, sent
  iapply (wp_load 𝒱₀ (c : Thread nD τ) none Set.univ (m := xM) (Finset.subset_univ _)) $$ HX; iintro HX
  iapply (wp_load_sblk c 1 _) $$ HS1; iintro HS1
  iapply (wp_store_sblk c 1 _) $$ HS1; iintro HS1
  iapply (wp_send_blk m ρ c _ (dev3_eq c) 1 _ (View.read_write_univ _ _) HaB_pay1_v _
      (tallyAt (recvCell (peer c) 3) () N + tallyAt (recvCell (peer c) 2) () N) rfl _ (K (c, 2)) (K (peer c, 6))) $$ [HS1 HP1 HO HtS1 HtRP1]
  · isplitr; · iexact HIs1
    isplitr; · iexact HIrP1
    isplitl [HS1]; · iexact HS1
    isplitl [HP1]; · iexact HP1
    isplitl [HO]; · iexact HO
    isplitl [HtS1]; · iexact HtS1
    isplitr; · iexact HrS1
    isplitl [HtRP1]; · iexact HtRP1
    iexact HrRP1
  iintro ⟨HcS1, HO⟩
  -- row block 2: cast, stored, sent
  iapply (wp_load 𝒱₀ (c : Thread nD τ) none Set.univ (m := xM) (Finset.subset_univ _)) $$ HX; iintro HX
  iapply (wp_load_sblk c 2 _) $$ HS2; iintro HS2
  rw [wp_ret]; imodintro
  simp only [k0_part3_eq_skeleton, k0_part4_eq_skeleton, k0_part5_eq_skeleton, k0_part6_eq_skeleton]
  unfold k0_part3_skel k0_part4_skel k0_part5_skel k0_part6_skel
  simp only [Prog.lift, Prog.bind_op, Prog.bind_ret, Prog.pure_eq_ret]
  -- row block 2: stored (its cast was read above), sent
  iapply (wp_store_sblk c 2 _) $$ HS2; iintro HS2
  iapply (wp_send_blk m ρ c _ (dev4_eq c) 2 _ (View.read_write_univ _ _) HaB_pay1_v _
      (tallyAt (recvCell (peer c) 3) () N) rfl _ (K (c, 3)) (K (peer c, 7))) $$ [HS2 HP2 HO HtS2 HtRP2]
  · isplitr; · iexact HIs2
    isplitr; · iexact HIrP2
    isplitl [HS2]; · iexact HS2
    isplitl [HP2]; · iexact HP2
    isplitl [HO]; · iexact HO
    isplitl [HtS2]; · iexact HtS2
    isplitr; · iexact HrS2
    isplitl [HtRP2]; · iexact HtRP2
    iexact HrRP2
  iintro ⟨HcS2, HO⟩
  -- row block 3: cast, stored, sent; nothing is owed after it
  iapply (wp_load 𝒱₀ (c : Thread nD τ) none Set.univ (m := xM) (Finset.subset_univ _)) $$ HX; iintro HX
  iapply (wp_load_sblk c 3 _) $$ HS3; iintro HS3
  iapply (wp_store_sblk c 3 _) $$ HS3; iintro HS3
  iapply (wp_send_blk m ρ c _ (dev5_eq c) 3 _ (View.read_write_univ _ _) HaB_pay1_v _
      0 (zero_add _).symm _ (K (c, 4)) (K (peer c, 8))) $$ [HS3 HP3 HO HtS3 HtRP3]
  · isplitr; · iexact HIs3
    isplitr; · iexact HIrP3
    isplitl [HS3]; · iexact HS3
    isplitl [HP3]; · iexact HP3
    isplitl [HO]; · iexact HO
    isplitl [HtS3]; · iexact HtS3
    isplitr; · iexact HrS3
    isplitl [HtRP3]; · iexact HtRP3
    iexact HrRP3
  iintro ⟨HcS3, HO⟩
  -- row block 0 arrives: the partner's cast rows; they are added to the device's own column half and stored
  iapply (Rounds.wp_wait_rest_token 𝒱₀ ER (rd m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (N_eq 0).trans (expect_recv m ρ c 0).symm)) $$ [HcR0 HO HaR0]
  · isplitr; · iexact HIr0
    isplitl [HcR0]; · iexact HcR0
    isplitl [HO]; · iexact HO
    isplitr; · rw [MayWait_zero]; iempintro
    iexact HaR0
  iintro ⟨HO, HaR0, -, Hpay⟩
  ihave Hp := (Entails.of_eq (rest_recv m ρ c 0)) $$ Hpay
  unfold recvPay
  icases Hp with ⟨%fr0, %hfr0, HC0⟩
  iapply (wp_load 𝒱₀ (c : Thread nD τ) none Set.univ (m := xM) (Finset.subset_univ _)) $$ HX; iintro HX
  iapply (wp_load_cblk c 0 _) $$ HC0; iintro HC0
  iapply (wp_load 𝒱₀ (c : Thread nD τ) none Set.univ (m := oM) (Finset.subset_univ _)) $$ HOut; iintro HOut
  iapply (wp_store 𝒱₀ (c : Thread nD τ) none Set.univ (m := oM) (r := rk 0) (Mk := Finset.univ) (Finset.subset_univ _)) $$ HOut; iintro HOut
  -- row block 1 arrives
  iapply (Rounds.wp_wait_rest_token 𝒱₀ ER (rd m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (N_eq 1).trans (expect_recv m ρ c 1).symm)) $$ [HcR1 HO HaR1]
  · isplitr; · iexact HIr1
    isplitl [HcR1]; · iexact HcR1
    isplitl [HO]; · iexact HO
    isplitr; · rw [MayWait_zero]; iempintro
    iexact HaR1
  iintro ⟨HO, HaR1, -, Hpay⟩
  ihave Hp := (Entails.of_eq (rest_recv m ρ c 1)) $$ Hpay
  unfold recvPay
  icases Hp with ⟨%fr1, %hfr1, HC1⟩
  iapply (wp_load 𝒱₀ (c : Thread nD τ) none Set.univ (m := xM) (Finset.subset_univ _)) $$ HX; iintro HX
  iapply (wp_load_cblk c 1 _) $$ HC1; iintro HC1
  iapply (wp_load 𝒱₀ (c : Thread nD τ) none Set.univ (m := oM) (Finset.subset_univ _)) $$ HOut; iintro HOut
  iapply (wp_store 𝒱₀ (c : Thread nD τ) none Set.univ (m := oM) (r := rk 1) (Mk := Finset.univ) (Finset.subset_univ _)) $$ HOut; iintro HOut
  -- row block 2 arrives
  iapply (Rounds.wp_wait_rest_token 𝒱₀ ER (rd m ρ) (c : Thread nD τ) none (κ := K (c, 7))
      (wpE_waitDma2_eq 𝒱₀ (c : Thread nD τ) none Set.univ) (Set.mem_univ _) () (O := 0) (R := 0) (m := 0) (T := ∅)
      (by rw [Nat.zero_add]; exact (N_eq 2).trans (expect_recv m ρ c 2).symm)) $$ [HcR2 HO HaR2]
  · isplitr; · iexact HIr2
    isplitl [HcR2]; · iexact HcR2
    isplitl [HO]; · iexact HO
    isplitr; · rw [MayWait_zero]; iempintro
    iexact HaR2
  iintro ⟨HO, HaR2, -, Hpay⟩
  ihave Hp := (Entails.of_eq (rest_recv m ρ c 2)) $$ Hpay
  unfold recvPay
  icases Hp with ⟨%fr2, %hfr2, HC2⟩
  iapply (wp_load 𝒱₀ (c : Thread nD τ) none Set.univ (m := xM) (Finset.subset_univ _)) $$ HX; iintro HX
  iapply (wp_load_cblk c 2 _) $$ HC2; iintro HC2
  iapply (wp_load 𝒱₀ (c : Thread nD τ) none Set.univ (m := oM) (Finset.subset_univ _)) $$ HOut; iintro HOut
  iapply (wp_store 𝒱₀ (c : Thread nD τ) none Set.univ (m := oM) (r := rk 2) (Mk := Finset.univ) (Finset.subset_univ _)) $$ HOut; iintro HOut
  -- row block 3 arrives
  iapply (Rounds.wp_wait_rest_token 𝒱₀ ER (rd m ρ) (c : Thread nD τ) none (κ := K (c, 8))
      (wpE_waitDma2_eq 𝒱₀ (c : Thread nD τ) none Set.univ) (Set.mem_univ _) () (O := 0) (R := 0) (m := 0) (T := ∅)
      (by rw [Nat.zero_add]; exact (N_eq 3).trans (expect_recv m ρ c 3).symm)) $$ [HcR3 HO HaR3]
  · isplitr; · iexact HIr3
    isplitl [HcR3]; · iexact HcR3
    isplitl [HO]; · iexact HO
    isplitr; · rw [MayWait_zero]; iempintro
    iexact HaR3
  iintro ⟨HO, HaR3, -, Hpay⟩
  ihave Hp := (Entails.of_eq (rest_recv m ρ c 3)) $$ Hpay
  unfold recvPay
  icases Hp with ⟨%fr3, %hfr3, HC3⟩
  iapply (wp_load 𝒱₀ (c : Thread nD τ) none Set.univ (m := xM) (Finset.subset_univ _)) $$ HX; iintro HX
  iapply (wp_load_cblk c 3 _) $$ HC3; iintro HC3
  iapply (wp_load 𝒱₀ (c : Thread nD τ) none Set.univ (m := oM) (Finset.subset_univ _)) $$ HOut; iintro HOut
  iapply (wp_store 𝒱₀ (c : Thread nD τ) none Set.univ (m := oM) (r := rk 3) (Mk := Finset.univ) (Finset.subset_univ _)) $$ HOut; iintro HOut
  -- the four copies' sources come back
  iapply (Rounds.wp_wait_rest_token 𝒱₀ ER (rd m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (N_eq' 0).trans (expect_send m ρ c 0).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Hp := (Entails.of_eq (rest_send m ρ c 0)) $$ Hpay
  unfold sendPay
  icases Hp with ⟨%fq0, HS0⟩
  iapply (Rounds.wp_wait_rest_token 𝒱₀ ER (rd m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (N_eq' 1).trans (expect_send m ρ c 1).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Hp := (Entails.of_eq (rest_send m ρ c 1)) $$ Hpay
  unfold sendPay
  icases Hp with ⟨%fq1, HS1⟩
  iapply (Rounds.wp_wait_rest_token 𝒱₀ ER (rd m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (N_eq' 2).trans (expect_send m ρ c 2).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Hp := (Entails.of_eq (rest_send m ρ c 2)) $$ Hpay
  unfold sendPay
  icases Hp with ⟨%fq2, HS2⟩
  iapply (Rounds.wp_wait_rest_token 𝒱₀ ER (rd m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (N_eq' 3).trans (expect_send m ρ c 3).symm)) $$ [HcS3 HO HaS3]
  · isplitr; · iexact HIs3
    isplitl [HcS3]; · iexact HcS3
    isplitl [HO]; · iexact HO
    isplitr; · rw [MayWait_zero]; iempintro
    iexact HaS3
  iintro ⟨HO, HaS3, -, Hpay⟩
  ihave Hp := (Entails.of_eq (rest_send m ρ c 3)) $$ Hpay
  unfold sendPay
  icases Hp with ⟨%fq3, HS3⟩
  -- the eight own cells close: nothing more can land on them, their counters stand at zero
  imod (Rounds.cell_close ER (rd m ρ) (Set.mem_univ (K (c, 1))) (fun h => h) (R := 0 + 1) (duties_later m ρ (sendCell c 0))) $$ [HaS0] with HzS0
  · isplitr; · iexact HIs0
    iexact HaS0
  imod (Rounds.cell_close ER (rd m ρ) (Set.mem_univ (K (c, 2))) (fun h => h) (R := 0 + 1) (duties_later m ρ (sendCell c 1))) $$ [HaS1] with HzS1
  · isplitr; · iexact HIs1
    iexact HaS1
  imod (Rounds.cell_close ER (rd m ρ) (Set.mem_univ (K (c, 3))) (fun h => h) (R := 0 + 1) (duties_later m ρ (sendCell c 2))) $$ [HaS2] with HzS2
  · isplitr; · iexact HIs2
    iexact HaS2
  imod (Rounds.cell_close ER (rd m ρ) (Set.mem_univ (K (c, 4))) (fun h => h) (R := 0 + 1) (duties_later m ρ (sendCell c 3))) $$ [HaS3] with HzS3
  · isplitr; · iexact HIs3
    iexact HaS3
  imod (Rounds.cell_close ER (rd m ρ) (Set.mem_univ (K (c, 5))) (fun h => h) (R := 0 + 1) (duties_later m ρ (recvCell c 0))) $$ [HaR0] with HzR0
  · isplitr; · iexact HIr0
    iexact HaR0
  imod (Rounds.cell_close ER (rd m ρ) (Set.mem_univ (K (c, 6))) (fun h => h) (R := 0 + 1) (duties_later m ρ (recvCell c 1))) $$ [HaR1] with HzR1
  · isplitr; · iexact HIr1
    iexact HaR1
  imod (Rounds.cell_close ER (rd m ρ) (Set.mem_univ (K (c, 7))) (fun h => h) (R := 0 + 1) (duties_later m ρ (recvCell c 2))) $$ [HaR2] with HzR2
  · isplitr; · iexact HIr2
    iexact HaR2
  imod (Rounds.cell_close ER (rd m ρ) (Set.mem_univ (K (c, 8))) (fun h => h) (R := 0 + 1) (duties_later m ρ (recvCell c 3))) $$ [HaR3] with HzR3
  · isplitr; · iexact HIr3
    iexact HaR3
  rw [wp_ret]; imodintro
  iapply Hk
  unfold bodyPost Φ₁ Dat.owesAt Pipeline.owesWithin
  rw [show (dats m ρ 0 c).owed t₀.succ = 0 from rfl]
  isplitl [HS0 HS1 HS2 HS3 HC0 HC1 HC2 HC3 HzS0 HzS1 HzS2 HzS3 HzR0 HzR1 HzR2 HzR3]
  · isplitl [HS0 HS1 HS2 HS3]
    · iapply (sAll_join (F := F) c fq0 fq1 fq2 fq3)
      isplitl [HS0]; · iexact HS0
      isplitl [HS1]; · iexact HS1
      isplitl [HS2]; · iexact HS2
      iexact HS3
    isplitl [HC0 HC1 HC2 HC3]
    · iapply (cAll_join (F := F) c fr0 fr1 fr2 fr3)
      isplitl [HC0]; · iexact HC0
      isplitl [HC1]; · iexact HC1
      isplitl [HC2]; · iexact HC2
      iexact HC3
    isplitl [HzS0]; · iexact HzS0
    isplitl [HzS1]; · iexact HzS1
    isplitl [HzS2]; · iexact HzS2
    isplitl [HzS3]; · iexact HzS3
    isplitl [HzR0]; · iexact HzR0
    isplitl [HzR1]; · iexact HzR1
    isplitl [HzR2]; · iexact HzR2
    iexact HzR3
  isplitl [HO]
  · iexists _
    isplitr
    on_goal 2 => iexact HO
    ipureintro; exact fun _ _ => Or.inl trivial
  isplitl [HX]
  · iexists _; isplitr; · (ipureintro; rfl)
    iexact HX
  iexists _
  isplitr
  on_goal 2 => iexact HOut
  ipureintro
  exact out_final m ρ c g1 fr0 fr1 fr2 fr3 hfr0 hfr1 hfr2 hfr3

set_option maxHeartbeats 4000000 in
set_option maxRecDepth 8000 in
/-- The library's body obligation on device `c`: the starting resources regrouped, the ghost state's names opened. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hs, Hc⟩, Ho, Hx, Hout⟩
  iapply (sound_body m ρ K c fun _ => bodyPost m ρ c)
  unfold bodyPre
  isplitr []
  · isplitl [Hg Hcr Hlev Hs Hc]
    · isplitl [Hg]; · iexact Hg
      isplitl [Hcr]; · iexact Hcr
      isplitl [Hlev]; · iexact Hlev
      isplitl [Hs]; · iexact Hs
      iexact Hc
    isplitl [Ho]; · iexact Ho
    isplitl [Hx] <;> iassumption
  · iintro H; iexact H

/-- info: 'Cert.KernelProof.body_obligation' depends on axioms: [propext, Classical.choice, Quot.sound] -/
#guard_msgs in #print axioms body_obligation

end Cert.KernelProof
end
-- ==== Proof.KernelIdealHand.Proto.lean ====
import proofs.«901036_g7700000000001037_dist_rs_v7x_xyz2x2x4_x_m512_n512_f32_1_alg».proof.Proof.Gen.KernelIdeal
import proofs.«901036_g7700000000001037_dist_rs_v7x_xyz2x2x4_x_m512_n512_f32_1_alg».proof.Proof.Gen.KernelIdeal.Skeleton
import proofs.«901036_g7700000000001037_dist_rs_v7x_xyz2x2x4_x_m512_n512_f32_1_alg».proof.Proof.Gen.KernelIdeal.Launch
import proofs.«901036_g7700000000001037_dist_rs_v7x_xyz2x2x4_x_m512_n512_f32_1_alg».proof.Proof.Gen.KernelIdeal.Points
import Idealize.ShloMosaic.Lib.Pipeline.Launch
import Idealize.ShloMosaic.Lib.Pipeline.Kit
import Idealize.ShloMosaic.Lib.Ring
import Idealize.ShloMosaic.Lib.Tactic

/-!
# The exchange protocol of the two-device reduce-scatter

Sixteen devices; device `c` and its partner `peer c` (the device whose first mesh coordinate is the other one,
`c ± 8`) exchange halves of their blocks. Each device announces itself on the partner's barrier semaphore, casts
the partner's column half of its block into a send buffer row block by row block (four blocks of 128 rows),
copies each row block into the partner's receive buffer, and adds what it receives to its own column half.

Per device the semaphore cells are: the barrier cell (one unit, paid by the partner's signal, which hands over the
partner's receive buffer), four send cells (one per row block; paid by the device's own copy as the source is read,
handing the source rows back) and four receive cells (paid by the partner's copy as the rows land, handing over the
rows at the partner's cast values). Every cell has one round with one duty.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The device with the other first mesh coordinate: `c + 8` below 8, `c - 8` from 8 on. -/
def peer (c : Dev nD) : Dev nD :=
  ⟨(4 * ((c.val / 4) % 2) + (c.val % 4) + 8) - 8 * (c.val / 8), by have h : c.val < 16 := c.isLt; show _ < 16; omega⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)

def pairing : Dev nD ≃ Dev nD := ⟨peer, peer, peer_peer, peer_peer⟩

/-! ## The memrefs, the row blocks and the cells -/

abbrev xM : Memref sig .tc .vmem S1x512x1024 .f32 := Memref.whole cc0_stg0_0
abbrev oM : Memref sig .tc .vmem S512x512 .f32 := Memref.whole cc0_stg1_0
abbrev sM : Memref sig .tc .vmem S512x512 .bf16 := Memref.whole cc0_scratch0
abbrev cM : Memref sig .tc .vmem S512x512 .bf16 := Memref.whole cc0_scratch1

/-- Row block `k` starts at row `128 k`. -/
abbrev rowOff : Fin 4 → (Fin 2 → ℕ)
  | 0 => ![0, 0] | 1 => ![128, 0] | 2 => ![256, 0] | 3 => ![384, 0]

theorem rowInb (k : Fin 4) : ∀ a, rowOff k a + S128x512.size a ≤ S512x512.size a := by revert k; decide

/-- Row block `k` of a 512 × 512 buffer: 128 whole rows. -/
abbrev rk (k : Fin 4) : Rect S512x512 := Rect.unit (s := S512x512) (rowOff k) S128x512.size (rowInb k)

/-- Row block `k` of the send buffer and of the receive buffer. -/
abbrev sS (k : Fin 4) : Memref sig .tc .vmem S128x512 .bf16 := sM.slice (rk k) (fun _ => rfl)
abbrev cS (k : Fin 4) : Memref sig .tc .vmem S128x512 .bf16 := cM.slice (rk k) (fun _ => rfl)

abbrev barS : Sem sig := (SemArray.scalar (sig.barrier 0 rfl) : Sems sig S_).sem
/-- The send semaphore and the receive semaphore of row block `k`. -/
abbrev sendS : Fin 4 → DmaSem sig
  | 0 => ((cc0_scratch2.slice (Rect.unit (s := S4) ![0] S1.size inb_S4_S1_0)).squeeze S_ squeezes_S1_S_).sem
  | 1 => ((cc0_scratch2.slice (Rect.unit (s := S4) ![1] S1.size inb_S4_S1_1)).squeeze S_ squeezes_S1_S_).sem
  | 2 => ((cc0_scratch2.slice (Rect.unit (s := S4) ![2] S1.size inb_S4_S1_2)).squeeze S_ squeezes_S1_S_).sem
  | 3 => ((cc0_scratch2.slice (Rect.unit (s := S4) ![3] S1.size inb_S4_S1_3)).squeeze S_ squeezes_S1_S_).sem
abbrev recvS : Fin 4 → DmaSem sig
  | 0 => ((cc0_scratch3.slice (Rect.unit (s := S4) ![0] S1.size inb_S4_S1_0)).squeeze S_ squeezes_S1_S_).sem
  | 1 => ((cc0_scratch3.slice (Rect.unit (s := S4) ![1] S1.size inb_S4_S1_1)).squeeze S_ squeezes_S1_S_).sem
  | 2 => ((cc0_scratch3.slice (Rect.unit (s := S4) ![2] S1.size inb_S4_S1_2)).squeeze S_ squeezes_S1_S_).sem
  | 3 => ((cc0_scratch3.slice (Rect.unit (s := S4) ![3] S1.size inb_S4_S1_3)).squeeze S_ squeezes_S1_S_).sem

theorem sendS_val (k : Fin 4) : (sendS k).val = 2 + k.val := by revert k; decide
theorem recvS_val (k : Fin 4) : (recvS k).val = 6 + k.val := by revert k; decide

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- One copy's credit: the words of a row block. -/
abbrev N : ℕ := (cS 0).view.dmaCredit
theorem N_pos : 0 < N := View.dmaCredit_pos _ (by decide)
theorem N_eq (k : Fin 4) : (cS k).view.dmaCredit = N := by revert k; decide

/-! ## Contents -/

/-- The device's block of `x` as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- A 128-row, 512-column piece of the staged block. -/
def xld (c : Dev nD) (off : Fin 3 → ℕ) (inb : ∀ a, off a + S1x128x512.size a ≤ S1x512x1024.size a) : Vec F S1x128x512 .f32 :=
  (xM : Memref sig .tc .vmem S1x512x1024 .f32).view.readAt (Elt F) (Rect.unit (s := S1x512x1024) off S1x128x512.size inb).toLoadRect (xstg m ρ c)

/-- What device `c` sends in row block `k`: the partner's column half of its rows, cast. -/
def sv (c : Dev nD) : Fin 4 → FVec F S128x512 .bf16
  | 0 => k0_pay1 (xld m ρ c (k0_off1 c) (k0_off1_inb c))
  | 1 => k0_pay2 (xld m ρ c (k0_off2 c) (k0_off2_inb c))
  | 2 => k0_pay4 (k0_pay3 (xld m ρ c (k0_off3 c) (k0_off3_inb c)))
  | 3 => k0_pay5 (xld m ρ c (k0_off4 c) (k0_off4_inb c))

/-- What device `c` stores in row block `k` of its result: its own column half of the rows plus what the partner sent. -/
def ov (c : Dev nD) : Fin 4 → FVec F S128x512 .f32
  | 0 => k0_pay6 (xld m ρ c (k0_off5 c) (k0_off5_inb c)) (sv m ρ (peer c) 0)
  | 1 => k0_pay7 (xld m ρ c (k0_off6 c) (k0_off6_inb c)) (sv m ρ (peer c) 1)
  | 2 => k0_pay8 (xld m ρ c (k0_off7 c) (k0_off7_inb c)) (sv m ρ (peer c) 2)
  | 3 => k0_pay9 (xld m ρ c (k0_off8 c) (k0_off8_inb c)) (sv m ρ (peer c) 3)

/-- The device's result block: the four row blocks stored one after the other (over contents that no longer show). -/
def outAt (c : Dev nD) : (cc0_stg1_0 : Ref sig .tc).ty.Contents (Elt F) :=
  (oM : Memref sig .tc .vmem S512x512 .f32).view.read (Elt F)
    ((oM : Memref sig .tc .vmem S512x512 .f32).view.writes (Elt F) (oM : Memref sig .tc .vmem S512x512 .f32).view.junk
      [⟨rk 3, ov m ρ c 3⟩, ⟨rk 2, ov m ρ c 2⟩, ⟨rk 1, ov m ρ c 1⟩, ⟨rk 0, ov m ρ c 0⟩])

/-! ## Ownership -/

/-- Row block `k` of the send buffer at contents `f`; of the receive buffer; the whole buffers. -/
def sPts (c : Dev nD) (k : Fin 4) (f : Buf (Elt F) ((sS k).view.loc (c : Thread nD τ))) : sProp 𝕄 :=
  (sS k).view.loc (c : Thread nD τ) ↦[(sS k).view.set]{fullShare} f
def cPts (c : Dev nD) (k : Fin 4) (f : Buf (Elt F) ((cS k).view.loc (c : Thread nD τ))) : sProp 𝕄 :=
  (cS k).view.loc (c : Thread nD τ) ↦[(cS k).view.set]{fullShare} f
def sAll (c : Dev nD) (f : Buf (Elt F) ((c : Thread nD τ).loc cc0_scratch0)) : sProp 𝕄 :=
  ((c : Thread nD τ).loc cc0_scratch0) ↦{fullShare} f
def cAll (c : Dev nD) (f : Buf (Elt F) ((c : Thread nD τ).loc cc0_scratch1)) : sProp 𝕄 :=
  ((c : Thread nD τ).loc cc0_scratch1) ↦{fullShare} f

/-! ## The schedule -/

/-- The partner's signal hands `c` the partner's receive buffer. -/
def barPay (c : Dev nD) : sProp 𝕄 := iprop(∃ f, cAll (peer c) f)
/-- The copy's source rows come back to the sender (their contents no longer matter). -/
def sendPay (c : Dev nD) (k : Fin 4) : sProp 𝕄 := iprop(∃ f, sPts c k f)
/-- The partner's copy lands the partner's cast rows. -/
def recvPay (c : Dev nD) (k : Fin 4) : sProp 𝕄 :=
  iprop(∃ f, ⌜(cS k).view.read (Elt F) f = sv m ρ (peer c) k⌝ ∗ cPts c k f)

/-- The payload by semaphore: the barrier (the one regular semaphore), send semaphores 2–5, receive semaphores 6–9. -/
def payOf (c : Dev nD) : SemLoc sig → sProp 𝕄
  | .reg _ => barPay c
  | .dma q => if h : 2 ≤ q.val ∧ q.val < 6 then sendPay c ⟨q.val - 2, by omega⟩
      else if h : 6 ≤ q.val ∧ q.val < 10 then recvPay m ρ c ⟨q.val - 6, by omega⟩ else iprop(emp)

/-- The exchange's cells: the barrier and DMA semaphores 2–9 of a TensorCore. -/
def IsMine (g : GSem nD τ sig) : Prop := g.1.2 = .tc ∧ (match g.2 with | .reg _ => True | .dma q => 2 ≤ q.val)
instance (g : GSem nD τ sig) : Decidable (IsMine g) := by unfold IsMine; cases g.2 <;> infer_instance

/-- One round, one duty per cell: a barrier cell's of one unit, a send or receive cell's of a row block's credit. -/
def rd : Rounds.Schedule (GSem nD τ sig) Bool 𝕄 where
  duties g r := if r = 0 ∧ IsMine g then {false} else ∅
  unitless _ := False
  amount g _ _ := match g.2 with | .reg _ => 1 | .dma _ => N
  payload g _ _ := payOf m ρ g.1.1 g.2
  amount_pos g _ _ _ := by
    cases g.2 with
    | reg _ => exact Nat.one_pos
    | dma _ => exact N_pos

instance rd_payload_storable (g : GSem nD τ sig) (r : ℕ) (d : Bool) :
    BI.Storable (upEmb : UEmb _ 𝕄) ((rd (F := F) m ρ).payload g r d) := by
  show BI.Storable upEmb (payOf m ρ g.1.1 g.2)
  unfold payOf barPay sendPay recvPay sPts cPts cAll
  cases g.2 with
  | reg _ => dsimp only; infer_instance
  | dma q => dsimp only; (repeat' split) <;> infer_instance

section Sched
variable (c : Dev nD) (k : Fin 4)

theorem mine_bar : IsMine (barCell c) := ⟨rfl, trivial⟩
theorem mine_send : IsMine (sendCell c k) := ⟨rfl, by show 2 ≤ (sendS k).val; rw [sendS_val]; omega⟩
theorem mine_recv : IsMine (recvCell c k) := ⟨rfl, by show 2 ≤ (recvS k).val; rw [recvS_val]; omega⟩

theorem duties_bar : (rd (F := F) m ρ).duties (barCell c) 0 = {false} := by dsimp only [rd]; exact if_pos ⟨rfl, mine_bar c⟩
theorem duties_send : (rd (F := F) m ρ).duties (sendCell c k) 0 = {false} := by dsimp only [rd]; exact if_pos ⟨rfl, mine_send c k⟩
theorem duties_recv : (rd (F := F) m ρ).duties (recvCell c k) 0 = {false} := by dsimp only [rd]; exact if_pos ⟨rfl, mine_recv c k⟩
theorem duties_later (g : GSem nD τ sig) : ∀ r, 1 ≤ r → (rd (F := F) m ρ).duties g r = ∅ :=
  fun r hr => by dsimp only [rd]; rw [if_neg fun h => by omega]

theorem amount_bar (d : Bool) : (rd (F := F) m ρ).amount (barCell c) 0 d = 1 := rfl
theorem amount_send (d : Bool) : (rd (F := F) m ρ).amount (sendCell c k) 0 d = N := rfl
theorem amount_recv (d : Bool) : (rd (F := F) m ρ).amount (recvCell c k) 0 d = N := rfl

theorem expect_bar : (rd (F := F) m ρ).expect (barCell c) 0 = 1 := by
  unfold Schedule.expect Schedule.amountOf; rw [duties_bar, Finset.sum_singleton, amount_bar]
theorem expect_send : (rd (F := F) m ρ).expect (sendCell c k) 0 = N := by
  unfold Schedule.expect Schedule.amountOf; rw [duties_send, Finset.sum_singleton, amount_send]
theorem expect_recv : (rd (F := F) m ρ).expect (recvCell c k) 0 = N := by
  unfold Schedule.expect Schedule.amountOf; rw [duties_recv, Finset.sum_singleton, amount_recv]

theorem payload_bar (d : Bool) : (rd (F := F) m ρ).payload (barCell c) 0 d = barPay c := rfl
theorem payload_send (d : Bool) : (rd (F := F) m ρ).payload (sendCell c k) 0 d = sendPay c k := by
  revert k; intro k; fin_cases k <;> rfl
theorem payload_recv (d : Bool) : (rd (F := F) m ρ).payload (recvCell c k) 0 d = recvPay m ρ c k := by
  revert k; intro k; fin_cases k <;> rfl

theorem rest_bar : bigSep ((rd (F := F) m ρ).duties (barCell c) 0 \ ∅) (fun d => (rd (F := F) m ρ).payload (barCell c) 0 d) = barPay c := by
  rw [Finset.sdiff_empty, duties_bar, bigSep_singleton, payload_bar]
theorem rest_send : bigSep ((rd (F := F) m ρ).duties (sendCell c k) 0 \ ∅) (fun d => (rd (F := F) m ρ).payload (sendCell c k) 0 d) = sendPay c k := by
  rw [Finset.sdiff_empty, duties_send, bigSep_singleton, payload_send]
theorem rest_recv : bigSep ((rd (F := F) m ρ).duties (recvCell c k) 0 \ ∅) (fun d => (rd (F := F) m ρ).payload (recvCell c k) 0 d) = recvPay m ρ c k := by
  rw [Finset.sdiff_empty, duties_recv, bigSep_singleton, payload_recv]

end Sched

/-! ## What each device owes at launch; the levels -/

/-- Device `c` owes its partner's receive cell `k` one row block's credit, -/
def Orecv (c : Dev nD) (k : Fin 4) : CellTallies nD τ sig Unit := tallyAt (recvCell (peer c) k) () N
/-- what is left to pay before the third, the second, the first copy, -/
def O₃ (c : Dev nD) : CellTallies nD τ sig Unit := Orecv c 3 + Orecv c 2
def O₂ (c : Dev nD) : CellTallies nD τ sig Unit := O₃ c + Orecv c 1
def O₁ (c : Dev nD) : CellTallies nD τ sig Unit := O₂ c + Orecv c 0
/-- and, at launch, also the unit on the partner's barrier cell, summed so that each payment peels the last summand. -/
def O₀ (c : Dev nD) : CellTallies nD τ sig Unit := O₁ c + tallyAt (barCell (peer c)) () 1

def L (g : GSem nD τ sig) : Finset Unit := if g.1.2 = .tc then {()} else ∅
/-- Barrier cells at level 1, receive cells at 2, everything else (staging, send) at 0. -/
def lv (g : GSem nD τ sig) (_ : Unit) : ℕ := match g.2 with | .reg _ => 1 | .dma q => if 6 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (k : Fin 4) : lv (recvCell c k) () = 2 := by
  show (if 6 ≤ (recvS k).val then 2 else 0) = 2
  rw [recvS_val, if_pos (by omega)]

theorem O₁_pos {c : Dev nD} {g : GSem nD τ sig} {u : Unit} (h : 0 < O₁ c g u) : ∃ k, g = recvCell (peer c) k := by
  unfold O₁ O₂ O₃ Orecv at h
  rcases Pipeline.add_pos_cases h with h | h
  · rcases Pipeline.add_pos_cases h with h | h
    · rcases Pipeline.add_pos_cases h with h | h
      · exact ⟨3, (Pipeline.tallyAt_pos h).1⟩
      · exact ⟨2, (Pipeline.tallyAt_pos h).1⟩
    · exact ⟨1, (Pipeline.tallyAt_pos h).1⟩
  · exact ⟨0, (Pipeline.tallyAt_pos h).1⟩

theorem O₀_pos {c : Dev nD} {g : GSem nD τ sig} {u : Unit} (h : 0 < O₀ c g u) :
    (∃ k, g = recvCell (peer c) k) ∨ g = barCell (peer c) := by
  unfold O₀ at h
  rcases Pipeline.add_pos_cases h with h | h
  · exact .inl (O₁_pos h)
  · exact .inr (Pipeline.tallyAt_pos h).1

/-- A staging wait (a DMA semaphore below the receive ones) sits below everything a device owes. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; show (if 6 ≤ q.val then 2 else 0) ≤ 0; rw [if_neg (by omega)])
      (fun g u hg => by
        rcases O₀_pos hg with ⟨k, rfl⟩ | rfl
        · rw [lv_recv]; decide
        · rw [lv_bar]; decide)
  · rw [MayWait_zero]; iintro -; iempintro

/-- At its barrier wait a device owes the four receive credits only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp]; exact le_rfl)
    (fun g u hg => by obtain ⟨k, rfl⟩ := O₁_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at (per device:
    0 the barrier, 1–4 the send cells, 5–8 the receive cells): its own nine, its partner's barrier cell (its signal) and
    its partner's four receive cells (its copies). -/
def invs (K : Dev nD × Fin 9 → ℕ) (c : Dev nD) : sProp 𝕄 :=
  iprop(cellInv ER (rd m ρ) (K (c, 0)) (barCell c)
    ∗ cellInv ER (rd m ρ) (K (c, 1)) (sendCell c 0) ∗ cellInv ER (rd m ρ) (K (c, 2)) (sendCell c 1)
    ∗ cellInv ER (rd m ρ) (K (c, 3)) (sendCell c 2) ∗ cellInv ER (rd m ρ) (K (c, 4)) (sendCell c 3)
    ∗ cellInv ER (rd m ρ) (K (c, 5)) (recvCell c 0) ∗ cellInv ER (rd m ρ) (K (c, 6)) (recvCell c 1)
    ∗ cellInv ER (rd m ρ) (K (c, 7)) (recvCell c 2) ∗ cellInv ER (rd m ρ) (K (c, 8)) (recvCell c 3)
    ∗ cellInv ER (rd m ρ) (K (peer c, 0)) (barCell (peer c))
    ∗ cellInv ER (rd m ρ) (K (peer c, 5)) (recvCell (peer c) 0) ∗ cellInv ER (rd m ρ) (K (peer c, 6)) (recvCell (peer c) 1)
    ∗ cellInv ER (rd m ρ) (K (peer c, 7)) (recvCell (peer c) 2) ∗ cellInv ER (rd m ρ) (K (peer c, 8)) (recvCell (peer c) 3))

instance invs_persistent (K : Dev nD × Fin 9 → ℕ) (c : Dev nD) : BI.Persistent (invs m ρ K c) := by unfold invs; infer_instance

/-- Device `c`'s positions at round 0 of its nine cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0 ∗ atPos ER (sendCell c 3) 0 ∅ 0
    ∗ atPos ER (recvCell c 0) 0 ∅ 0 ∗ atPos ER (recvCell c 1) 0 ∅ 0 ∗ atPos ER (recvCell c 2) 0 ∅ 0 ∗ atPos ER (recvCell c 3) 0 ∅ 0)

/-- That round 0 is reached of the nine cells device `c` pays: its partner's barrier and receive cells, its own send cells. -/
def reacheds (c : Dev nD) : sProp 𝕄 :=
  iprop(reached ER (barCell (peer c)) 0
    ∗ reached ER (recvCell (peer c) 0) 0 ∗ reached ER (recvCell (peer c) 1) 0 ∗ reached ER (recvCell (peer c) 2) 0 ∗ reached ER (recvCell (peer c) 3) 0
    ∗ reached ER (sendCell c 0) 0 ∗ reached ER (sendCell c 1) 0 ∗ reached ER (sendCell c 2) 0 ∗ reached ER (sendCell c 3) 0)

instance reacheds_persistent (c : Dev nD) : BI.Persistent (reacheds (F := F) c) := by unfold reacheds; infer_instance

/-- The tokens of the nine duties device `c` pays. -/
def payToks (c : Dev nD) : sProp 𝕄 :=
  iprop(dutyTok ER (barCell (peer c)) 0 false
    ∗ dutyTok ER (recvCell (peer c) 0) 0 false ∗ dutyTok ER (recvCell (peer c) 1) 0 false ∗ dutyTok ER (recvCell (peer c) 2) 0 false ∗ dutyTok ER (recvCell (peer c) 3) 0 false
    ∗ dutyTok ER (sendCell c 0) 0 false ∗ dutyTok ER (sendCell c 1) 0 false ∗ dutyTok ER (sendCell c 2) 0 false ∗ dutyTok ER (sendCell c 3) 0 false)

/-- The exchange's ghost state device `c` starts from. -/
def ghost (K : Dev nD × Fin 9 → ℕ) (c : Dev nD) : sProp 𝕄 :=
  iprop(invs m ρ K c ∗ poss c ∗ reacheds c ∗ payToks c)

/-- The credit dealt to device `c` at launch: its barrier's unit and its four receive cells' credits. -/
def creds (c : Dev nD) : sProp 𝕄 :=
  iprop(cred (tallyAt (barCell c) () 1)
    ∗ cred (tallyAt (recvCell c 0) () N) ∗ cred (tallyAt (recvCell c 1) () N) ∗ cred (tallyAt (recvCell c 2) () N) ∗ cred (tallyAt (recvCell c 3) () N))

/-- What device `c`'s body starts from beside its buffers. -/
def start (c : Dev nD) : sProp 𝕄 :=
  iprop((∃ K, ghost m ρ K c) ∗ creds c ∗ levAts L lv)

def Φ₀ (c : Dev nD) : sProp 𝕄 := iprop(start m ρ c ∗ (∃ f, sAll c f) ∗ (∃ f, cAll c f))
/-- After the point: the two scratch buffers whole again, the eight own cells at zero, closed. -/
def Φ₁ (c : Dev nD) : sProp 𝕄 :=
  iprop((∃ f, sAll c f) ∗ (∃ f, cAll c f)
    ∗ semVal (sendCell c 0) 0 ∗ semVal (sendCell c 1) 0 ∗ semVal (sendCell c 2) 0 ∗ semVal (sendCell c 3) 0
    ∗ semVal (recvCell c 0) 0 ∗ semVal (recvCell c 1) 0 ∗ semVal (recvCell c 2) 0 ∗ semVal (recvCell c 3) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The library's body obligation at the one point, spelt out. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdealProof
end
-- ==== Proof.KernelIdealHand.Launch.lean ====
import proofs.«901036_g7700000000001037_dist_rs_v7x_xyz2x2x4_x_m512_n512_f32_1_alg».proof.Proof.KernelIdealHand.Proto

/-!
# The launch of the two-device exchange

Every device's nine exchange cells (its barrier cell, its four send cells, its four receive cells) are funded at
launch from one element of the exchange's algebra: the round state of each cell at counter zero, the owner's position,
the record that round 0 is reached, and one token per cell for its one duty. The counters at zero arrive with the
launch (the eight DMA semaphores are the kernel's own scoped ones, the barrier is the one unscoped semaphore), so each
cell's invariant is allocated in one global step; the tokens are then dealt to the devices that pay the duties: the
barrier's and the four receive cells' tokens go to the partner, the four send cells' tokens stay. The launch credit of
a device is what all devices owe its cells: one unit on its barrier cell and a row block's credit on each receive cell,
each owed by its partner alone.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, enumerated -/

/-- The kernel's own scoped semaphores: the four send semaphores, then the four receive semaphores. -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)

/-- A device's nine exchange semaphores: the barrier, the four send semaphores, the four receive semaphores. -/
abbrev csem : Fin 9 → SemLoc sig := fun
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)

/-- Cell `k` of device `c`. -/
abbrev kcell (ck : Dev nD × Fin 9) : GSem nD τ sig := ((ck.1 : Thread nD τ), csem ck.2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- All the exchange's cells. -/
def exCells : Finset (GSem nD τ sig) := Finset.univ.map ⟨kcell, kcell_injective⟩

/-- The one duty of each cell's round 0. -/
abbrev tokOf (ck : Dev nD × Fin 9) : GSem nD τ sig × ℕ × Bool := (kcell ck, 0, false)
theorem tokOf_injective : Function.Injective (tokOf : Dev nD × Fin 9 → GSem nD τ sig × ℕ × Bool) :=
  fun a b h => kcell_injective (congrArg Prod.fst h)
def exToks : Finset (GSem nD τ sig × ℕ × Bool) := Finset.univ.map ⟨tokOf, tokOf_injective⟩

/-- The launch element: the pipeline's cells and tokens, and the exchange's. -/
def u₀ : UU :=
  (initOf (Pipeline.cells cfgs cellOf_inj) (Pipeline.launchToks cfgs cellOf_inj), initOf exCells exToks)

/-- The duty tokens of device `c`'s own nine cells. -/
def toks (c : Dev nD) : sProp 𝕄 := bigSep Finset.univ fun k : Fin 9 => dutyTok ER (kcell (c, k)) 0 false

/-- What the launch element deals device `c`: its cells' round states, positions, reached records and tokens. -/
def G (c : Dev nD) : sProp 𝕄 :=
  iprop((bigSep Finset.univ fun k : Fin 9 => roundState ER (rd m ρ) (kcell (c, k)) 0)
    ∗ (bigSep Finset.univ fun k : Fin 9 => iprop(atPos ER (kcell (c, k)) 0 ∅ 0 ∗ reached ER (kcell (c, k)) 0)) ∗ toks c)

/-- What the global step makes of it: the ghost state the device's body starts from, at some names. -/
def G' (c : Dev nD) : sProp 𝕄 := iprop(∃ K, ghost m ρ K c)

/-! ## Funding -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The exchange's half of the launch element is every device's share. -/
theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 9 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (rd m ρ) exCells exToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The eight DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨⟨H1, H2, H3, H4, H5, H6, H7, H8⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- With its nine counters at zero, a device's nine cells' invariants are allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records: every cell's invariant at its name, and that round 0 of every cell is reached. -/
def records (K : Dev nD × Fin 9 → ℕ) : sProp 𝕄 :=
  iprop((bigSep Finset.univ fun ck : Dev nD × Fin 9 => cellInv ER (rd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem inv_at (K : Dev nD × Fin 9 → ℕ) (ck : Dev nD × Fin 9) :
    (bigSep Finset.univ fun ck : Dev nD × Fin 9 => (cellInv ER (rd m ρ) (K ck) (kcell ck) : sProp 𝕄)) ⊢ cellInv ER (rd m ρ) (K ck) (kcell ck) :=
  bigSep_elim (Finset.mem_univ ck)
omit [FloatOps F] in
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss c ∗ payToks c)

theorem ghost_intro (K : Dev nD × Fin 9 → ℕ) (c : Dev nD) : iprop(records m ρ K ∗ linear c) ⊢ G' m ρ c := by
  unfold records linear G' ghost invs reacheds
  iintro ⟨⟨#HI, #HR⟩, Hp, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (c, 7)); iexact HI
    isplitr; · iapply (inv_at m ρ K (c, 8)); iexact HI
    isplitr; · iapply (inv_at m ρ K (peer c, 0)); iexact HI
    isplitr; · iapply (inv_at m ρ K (peer c, 5)); iexact HI
    isplitr; · iapply (inv_at m ρ K (peer c, 6)); iexact HI
    isplitr; · iapply (inv_at m ρ K (peer c, 7)); iexact HI
    iapply (inv_at m ρ K (peer c, 8)); iexact HI
  isplitl [Hp]; · iexact Hp
  isplitr
  · isplitr; · iapply (reached_at (F := F) (peer c, 0)); iexact HR
    isplitr; · iapply (reached_at (F := F) (peer c, 5)); iexact HR
    isplitr; · iapply (reached_at (F := F) (peer c, 6)); iexact HR
    isplitr; · iapply (reached_at (F := F) (peer c, 7)); iexact HR
    isplitr; · iapply (reached_at (F := F) (peer c, 8)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 4)); iexact HR
  iexact Ht

omit [FloatOps F] in
/-- The tokens dealt: a barrier cell's and a receive cell's token to the partner (who signals, who copies), a send
    cell's token stays (the device's own copy pays it). -/
theorem toks_around : (bigSep Finset.univ fun c : Dev nD => (toks c : sProp 𝕄)) ⊢ bigSep Finset.univ fun c : Dev nD => payToks c := by
  have hL : (bigSep Finset.univ fun c : Dev nD => (toks c : sProp 𝕄))
      = bigSep Finset.univ fun c : Dev nD => iprop(dutyTok ER (barCell c) 0 false
        ∗ dutyTok ER (sendCell c 0) 0 false ∗ dutyTok ER (sendCell c 1) 0 false ∗ dutyTok ER (sendCell c 2) 0 false ∗ dutyTok ER (sendCell c 3) 0 false
        ∗ dutyTok ER (recvCell c 0) 0 false ∗ dutyTok ER (recvCell c 1) 0 false ∗ dutyTok ER (recvCell c 2) 0 false ∗ dutyTok ER (recvCell c 3) 0 false) :=
    bigSep_congr fun c _ => by unfold toks; rw [bigSep_fin9]
  rw [hL]
  unfold payToks
  simp only [bigSep_sep']
  rw [bigSep_univ_equiv pairing (fun c : Dev nD => (dutyTok ER (barCell c) 0 false : sProp 𝕄)),
    bigSep_univ_equiv pairing (fun c : Dev nD => (dutyTok ER (recvCell c 0) 0 false : sProp 𝕄)),
    bigSep_univ_equiv pairing (fun c : Dev nD => (dutyTok ER (recvCell c 1) 0 false : sProp 𝕄)),
    bigSep_univ_equiv pairing (fun c : Dev nD => (dutyTok ER (recvCell c 2) 0 false : sProp 𝕄)),
    bigSep_univ_equiv pairing (fun c : Dev nD => (dutyTok ER (recvCell c 3) 0 false : sProp 𝕄))]
  iintro ⟨HB, HS0, HS1, HS2, HS3, HR0, HR1, HR2, HR3⟩
  isplitl [HB]; · iexact HB
  isplitl [HR0]; · iexact HR0
  isplitl [HR1]; · iexact HR1
  isplitl [HR2]; · iexact HR2
  isplitl [HR3]; · iexact HR3
  isplitl [HS0]; · iexact HS0
  isplitl [HS1]; · iexact HS1
  isplitl [HS2]; · iexact HS2
  iexact HS3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocated cells regroup into each device's starting ghost state. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (rd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear poss; rw [bigSep_fin9])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owing its partner's receive cell `k` one row block's credit, each device is dealt that credit on its own. -/
theorem cred_recv (k : Fin 4) (c : Dev nD) :
    (Pipeline.launchCred (fun d => Orecv d k) c : sProp 𝕄) ⊢ cred (tallyAt (recvCell c k) () N) :=
  Pipeline.launchCred_tallyAt (.dma (recvS k)) peer peer peer_peer peer_peer () N c

omit [FloatOps F] in
/-- Every device owing its partner's barrier cell one unit, each device is dealt one unit on its own. -/
theorem cred_bar (c : Dev nD) :
    (Pipeline.launchCred (fun d => tallyAt (barCell (peer d)) () 1) c : sProp 𝕄) ⊢ cred (tallyAt (barCell c) () 1) :=
  Pipeline.launchCred_tallyAt (.reg barS) peer peer peer_peer peer_peer () 1 c

omit [FloatOps F] in
/-- The launch credit of device `c`: what its partner owes its barrier cell and its four receive cells. -/
theorem creds_intro (c : Dev nD) : (Pipeline.launchCred O₀ c : sProp 𝕄) ⊢ creds c := by
  have e : (Pipeline.launchCred O₀ c : sProp 𝕄)
      = iprop((((Pipeline.launchCred (fun d => Orecv d 3) c ∗ Pipeline.launchCred (fun d => Orecv d 2) c)
          ∗ Pipeline.launchCred (fun d => Orecv d 1) c) ∗ Pipeline.launchCred (fun d => Orecv d 0) c)
          ∗ Pipeline.launchCred (fun d => tallyAt (barCell (peer d)) () 1) c) := by
    rw [← Pipeline.launchCred_add, ← Pipeline.launchCred_add, ← Pipeline.launchCred_add, ← Pipeline.launchCred_add]
    rfl
  rw [e]
  unfold creds
  iintro ⟨⟨⟨⟨H3, H2⟩, H1⟩, H0⟩, HB⟩
  isplitl [HB]; · iapply (cred_bar (F := F) c); iexact HB
  isplitl [H0]; · iapply (cred_recv (F := F) 0 c); iexact H0
  isplitl [H1]; · iapply (cred_recv (F := F) 1 c); iexact H1
  isplitl [H2]; · iapply (cred_recv (F := F) 2 c); iexact H2
  iapply (cred_recv (F := F) 3 c); iexact H3

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sAll cAll
  iintro ⟨Hs, -, Hs0, Hs1⟩
  isplitl [Hs]; · iexact Hs
  isplitl [Hs0]; · iexact Hs0
  iexact Hs1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ sAll cAll
  iintro ⟨Hs0, Hs1, H1, H2, H3, H4, H5, H6, H7, H8⟩
  isplitr; · iempintro
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hs0]; · iexact Hs0
  iexact Hs1

/-- The pipeline's own waits are on the two staging semaphores, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of sixteen devices, for any float values, from any memory with zero counters: if every device's
    body meets its obligation, every weakly fair execution of the program terminates, and in every final state each
    device's arrays hold what the proof data says they hold after the one point. -/
theorem run_main (hbody : ∀ c : Dev nD, BodyObligation (dats (F := F) m ρ 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

end Cert.KernelIdealProof

end
-- ==== Proof.KernelIdealHand.Arrays.lean ====
import proofs.«901036_g7700000000001037_dist_rs_v7x_xyz2x2x4_x_m512_n512_f32_1_alg».proof.Proof.KernelIdealHand.Proto
import Idealize.ShloMosaic.Lib.Pipeline.Cells

/-!
# The arrays after the run

The pipeline's proof data names each windowed array after the write-backs of the points below a given one.
The grid has a single point. The input window's array is never written, so it ends as it began. The result
window is written back once, at that point, through the rectangle of the array's own sizes at zero offsets:
the array ends holding exactly what the body left in the result staging buffer, the four stored row blocks.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The argument array is an input window's: no point writes it back, so after the run it holds its launch contents. -/
theorem arr_x (c : Dev nD) : (dats (F := F) m ρ 0 c).arrAt (0 : Fin 2) cfg0.N = m ((c : Thread nD τ).loc main_arg0) :=
  (dats (F := F) m ρ 0 c).arrAt_in (0 : Fin 2) rfl _

/-- The result array is written back once, whole, with what the body left in the result staging buffer. -/
theorem arr_out (c : Dev nD) : (dats (F := F) m ρ 0 c).arrAt (1 : Fin 2) cfg0.N = outAt m ρ c := by
  have hN : cfg0.N = (t₀ : Fin cfg0.N).val + 1 := cfg0_N
  have h := (dats (F := F) m ρ 0 c).arrAt_succ (1 : Fin 2) t₀
  rw [flush0_1 t₀, if_pos rfl] at h
  refine (congrArg ((dats (F := F) m ρ 0 c).arrAt (1 : Fin 2)) hN).trans (h.trans ?_)
  refine (Memref.write_access_unit_zero_univ (Elt F) main_v1 (funext fun a => Nat.zero_mul _) _ _ _).trans ?_
  funext j
  dsimp only [dats, Dat.flushed, Window.cut]

/-- info: 'Cert.KernelIdealProof.arr_x' depends on axioms: [propext, Classical.choice, Quot.sound] -/
#guard_msgs in #print axioms arr_x

/-- info: 'Cert.KernelIdealProof.arr_out' depends on axioms: [propext, Classical.choice, Quot.sound] -/
#guard_msgs in #print axioms arr_out

end Cert.KernelIdealProof
end
-- ==== Proof.KernelIdealHand.Body.lean ====
import proofs.«901036_g7700000000001037_dist_rs_v7x_xyz2x2x4_x_m512_n512_f32_1_alg».proof.Proof.KernelIdealHand.Proto

/-!
# One device's body

The body of device `c`, stepped once at a symbolic device from its starting resources to what it leaves: the result
staging buffer at the four row blocks it stored, the two scratch buffers whole again, its eight own cells closed.
-/

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 9 → ℕ)

/-! ## Row blocks of a 512 × 512 buffer: disjoint, covering -/

theorem rowOff_lead (b : Fin 4) : rowOff b (0 : Fin 2) = 128 * b.val := by revert b; decide
theorem rowOff_rest (b : Fin 4) (a : Fin 2) (ha : a ≠ 0) : rowOff b a = 0 := by revert b a; decide

theorem rk_disjoint (k k' : Fin 4) (h : k ≠ k') : Disjoint (rk k).set (rk k').set :=
  Ring.lead_disjoint (s := S512x512) (0 : Fin 2) 128 rowOff S128x512.size rowInb rowOff_lead rfl k k' h

theorem rk_cover : Finset.univ.biUnion (fun k : Fin 4 => (rk k).set) = Finset.univ :=
  Ring.lead_cover (s := S512x512) (0 : Fin 2) 128 rowOff S128x512.size rowInb rowOff_lead rowOff_rest rfl
    (by intro a ha; revert a; decide) (by decide)

theorem sset (k : Fin 4) : (sS k).view.set = (rk k).set := View.set_slice_whole cc0_scratch0 (rk k)
theorem cset (k : Fin 4) : (cS k).view.set = (rk k).set := View.set_slice_whole cc0_scratch1 (rk k)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sPts_eq (c : Dev nD) (k : Fin 4) (f : Buf (Elt F) ((c : Thread nD τ).loc cc0_scratch0)) :
    (sPts c k f : sProp 𝕄) = (((c : Thread nD τ).loc cc0_scratch0) ↦[(rk k).set]{fullShare} f) := by
  unfold sPts; rw [sset]
theorem cPts_eq (c : Dev nD) (k : Fin 4) (f : Buf (Elt F) ((c : Thread nD τ).loc cc0_scratch1)) :
    (cPts c k f : sProp 𝕄) = (((c : Thread nD τ).loc cc0_scratch1) ↦[(rk k).set]{fullShare} f) := by
  unfold cPts; rw [cset]

/-- The send buffer held whole is held row block by row block, -/
theorem sAll_split (c : Dev nD) (f : Buf (Elt F) ((c : Thread nD τ).loc cc0_scratch0)) :
    (sAll c f : sProp 𝕄) = iprop(sPts c 0 f ∗ sPts c 1 f ∗ sPts c 2 f ∗ sPts c 3 f) := by
  simp only [sPts_eq]
  unfold sAll
  rw [Ring.pointsTo_blocks (ℓ := (c : Thread nD τ).loc cc0_scratch0) (fun k : Fin 4 => (rk k).set) rk_disjoint rk_cover f, bigSep_fin4]
/-- and so is the receive buffer. -/
theorem cAll_split (c : Dev nD) (f : Buf (Elt F) ((c : Thread nD τ).loc cc0_scratch1)) :
    (cAll c f : sProp 𝕄) = iprop(cPts c 0 f ∗ cPts c 1 f ∗ cPts c 2 f ∗ cPts c 3 f) := by
  simp only [cPts_eq]
  unfold cAll
  rw [Ring.pointsTo_blocks (ℓ := (c : Thread nD τ).loc cc0_scratch1) (fun k : Fin 4 => (rk k).set) rk_disjoint rk_cover f, bigSep_fin4]

/-- Row blocks held at contents of their own are the buffer held whole at some contents. -/
theorem sAll_join (c : Dev nD) (f0 f1 f2 f3 : Buf (Elt F) ((c : Thread nD τ).loc cc0_scratch0)) :
    iprop(sPts c 0 f0 ∗ sPts c 1 f1 ∗ sPts c 2 f2 ∗ sPts c 3 f3) ⊢ (iprop(∃ g, sAll c g) : sProp 𝕄) := by
  simp only [sPts_eq]
  unfold sAll
  have h := Ring.pointsTo_blocks_join (Ix := Unit) (Name := ℕ) (U := UU) (Lvl := ℕ) (q := fullShare) (ℓ := (c : Thread nD τ).loc cc0_scratch0) (fun k : Fin 4 => (rk k).set) rk_disjoint rk_cover
    (fun k : Fin 4 => match k with | 0 => f0 | 1 => f1 | 2 => f2 | 3 => f3) f0
  rw [bigSep_fin4] at h
  exact h
theorem cAll_join (c : Dev nD) (f0 f1 f2 f3 : Buf (Elt F) ((c : Thread nD τ).loc cc0_scratch1)) :
    iprop(cPts c 0 f0 ∗ cPts c 1 f1 ∗ cPts c 2 f2 ∗ cPts c 3 f3) ⊢ (iprop(∃ g, cAll c g) : sProp 𝕄) := by
  simp only [cPts_eq]
  unfold cAll
  have h := Ring.pointsTo_blocks_join (Ix := Unit) (Name := ℕ) (U := UU) (Lvl := ℕ) (q := fullShare) (ℓ := (c : Thread nD τ).loc cc0_scratch1) (fun k : Fin 4 => (rk k).set) rk_disjoint rk_cover
    (fun k : Fin 4 => match k with | 0 => f0 | 1 => f1 | 2 => f2 | 3 => f3) f0
  rw [bigSep_fin4] at h
  exact h

/-! ## The body -/

def bodyPre (c : Dev nD) : sProp 𝕄 :=
  iprop((ghost m ρ K c ∗ creds c ∗ levAts L lv ∗ (∃ f, sAll c f) ∗ (∃ f, cAll c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- The barrier duties' payload with the buffer spelt out: at the device's own cell the partner's receive buffer, -/
theorem pl_bar (c : Dev nD) (d : Bool) : (rd (F := F) m ρ).payload (barCell c) 0 d
    = iprop(∃ f, ((cM : Memref sig .tc .vmem S512x512 .bf16).view.loc ((peer c : Dev nD) : Thread nD τ)) ↦{fullShare} f) := rfl
/-- at the partner's cell the device's own. -/
theorem pl_barP (c : Dev nD) (d : Bool) : (rd (F := F) m ρ).payload (barCell (peer c)) 0 d
    = iprop(∃ f, ((cM : Memref sig .tc .vmem S512x512 .bf16).view.loc (c : Thread nD τ)) ↦{fullShare} f) := by
  show barPay (peer c) = _
  unfold barPay cAll; rw [peer_peer]

attribute [local sl_rounds high] pl_barP
attribute [local sl_rounds] duties_bar duties_send duties_recv amount_bar amount_send amount_recv pl_bar expect_bar expect_send expect_recv
attribute [local sl_canon] dev1_eq dev2_eq dev3_eq dev4_eq dev5_eq

/-- The copy of row block `k` to the partner `n = peer c`: the source rows hold the cast values `sv c k`, the partner's
    rows are the issuer's outright; the rows land at those values. -/
theorem wp_send_blk (c n : Dev nD) (hn : n = peer c) (k : Fin 4)
    {hsc : ((cS k) : Memref sig (Dev.tc n : Thread nD τ).2.kind .vmem S128x512 .bf16).view.ref.isScScratch = false}
    {hsrc : (sS k).view.WordExact} {hdst : (cS k).view.WordExact}
    {hsem : DmaTarget.Typed .vmem (.dma (recvS k)) (.remote (Dev.tc n : Thread nD τ) (cS k) (.dma (sendS k)) hsc)}
    {α : Type} {Q : α → sProp 𝕄} {kk : PUnit → Prog (TpuEff nD τ sig (Elt F) Λ₀ .tc) α}
    (fs : Buf (Elt F) ((sS k).view.loc (c : Thread nD τ))) (hfs : (sS k).view.read (Elt F) fs = sv m ρ c k)
    (fd : Buf (Elt F) ((cS k).view.loc (peer c : Thread nD τ))) (O' O : CellTallies nD τ sig Unit)
    (hO : O' = O + tallyAt (recvCell (peer c) k) () N) (W : Waits sig Unit) (κs κr : ℕ) :
    iprop(cellInv ER (rd m ρ) κs (sendCell c k) ∗ cellInv ER (rd m ρ) κr (recvCell (peer c) k)
        ∗ sPts c k fs ∗ cPts (peer c) k fd
        ∗ owes (c : Thread nD τ) O' W
        ∗ dutyTok ER (sendCell c k) 0 false ∗ reached ER (sendCell c k) 0
        ∗ dutyTok ER (recvCell (peer c) k) 0 false ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sS k) (.remote (Dev.tc n : Thread nD τ) (cS k) (.dma (sendS k)) hsc) (.dma (recvS k)) hsrc hdst hsem) kk) Q) := by
  subst hn
  unfold sPts cPts
  exact Rounds.wp_send_pointsTo 𝒱₀ ER (rd m ρ) (c : Thread nD τ) none (κ₁ := κs) (κ₂ := κr)
    (r₁ := 0) (r₂ := 0) (d₁ := false) (d₂ := false) (fs := fs) (fd := fd)
    (by rw [duties_send]; exact Finset.mem_singleton_self _) (by rw [duties_recv]; exact Finset.mem_singleton_self _)
    () () N (show (cS k).view.amount (SemLoc.dma (recvS k)) = N from N_eq k) (amount_send m ρ c k false) (amount_recv m ρ (peer c) k false) O hO (W := W)
    (by rw [payload_send]; unfold sendPay sPts; iintro H; iexists fs; iexact H)
    (by
      rw [payload_recv]; unfold recvPay cPts
      iintro H; iexists ((cS k).view.write (Elt F) fd ((sS k).view.read (Elt F) fs) Finset.univ)
      isplitr
      · ipureintro; rw [View.read_write_univ, hfs, peer_peer]
      · iexact H)

/-- A store of a whole row block of the send buffer, the rows held. -/
theorem wp_store_sblk (c : Dev nD) (k : Fin 4) {w : (rk k).shape.Idx → Elt F .bf16}
    {hx : ((sM : Memref sig .tc .vmem S512x512 .bf16).access (rk k)).Stores Finset.univ} {hm : Finset.univ = Finset.univ ∨ ∀ a, (rk k).stride a = 1}
    {α : Type} {Q : α → sProp 𝕄} {kk : PUnit → Prog (TpuEff nD τ sig (Elt F) Λ₀ .tc) α}
    (f : Buf (Elt F) ((c : Thread nD τ).loc cc0_scratch0)) :
    sPts c k f ⊢ iprop((sPts c k ((sS k).view.write (Elt F) f w Finset.univ) -∗ wp frame (wpE (defs₀ (F := F)) 𝒱₀ (c : Thread nD τ) none) Set.univ (kk ⟨⟩) Q)
        -∗ wp frame (wpE (defs₀ (F := F)) 𝒱₀ (c : Thread nD τ) none) Set.univ (.op (.store sM (rk k) w Finset.univ hx hm) kk) Q) := by
  unfold sPts
  exact wp_store 𝒱₀ (c : Thread nD τ) none Set.univ (m := sM) (r := rk k) (Mk := Finset.univ)
    (S := ((sM : Memref sig .tc .vmem S512x512 .bf16).access (rk k)).set) (Finset.Subset.refl _)

/-- A load of a whole row block of the send buffer, the rows held. -/
theorem wp_load_sblk (c : Dev nD) (k : Fin 4) {hl : (sM : Memref sig .tc .vmem S512x512 .bf16).view.LoadsAt (rk k).toLoadRect}
    {α : Type} {Q : α → sProp 𝕄} {kk : ((rk k).shape.Idx → Elt F .bf16) → Prog (TpuEff nD τ sig (Elt F) Λ₀ .tc) α}
    (f : Buf (Elt F) ((c : Thread nD τ).loc cc0_scratch0)) :
    sPts c k f ⊢ iprop((sPts c k f -∗ wp frame (wpE (defs₀ (F := F)) 𝒱₀ (c : Thread nD τ) none) Set.univ (kk ((sS k).view.read (Elt F) f)) Q)
        -∗ wp frame (wpE (defs₀ (F := F)) 𝒱₀ (c : Thread nD τ) none) Set.univ (.op (.load sM (rk k).toLoadRect hl) kk) Q) := by
  unfold sPts
  exact wp_load_rect 𝒱₀ (c : Thread nD τ) none Set.univ (m := sM) (r := rk k) (Finset.Subset.refl _)

/-- A load of a whole row block of the receive buffer, the rows held. -/
theorem wp_load_cblk (c : Dev nD) (k : Fin 4) {hl : (cM : Memref sig .tc .vmem S512x512 .bf16).view.LoadsAt (rk k).toLoadRect}
    {α : Type} {Q : α → sProp 𝕄} {kk : ((rk k).shape.Idx → Elt F .bf16) → Prog (TpuEff nD τ sig (Elt F) Λ₀ .tc) α}
    (f : Buf (Elt F) ((c : Thread nD τ).loc cc0_scratch1)) :
    cPts c k f ⊢ iprop((cPts c k f -∗ wp frame (wpE (defs₀ (F := F)) 𝒱₀ (c : Thread nD τ) none) Set.univ (kk ((cS k).view.read (Elt F) f)) Q)
        -∗ wp frame (wpE (defs₀ (F := F)) 𝒱₀ (c : Thread nD τ) none) Set.univ (.op (.load cM (rk k).toLoadRect hl) kk) Q) := by
  unfold cPts
  exact wp_load_rect 𝒱₀ (c : Thread nD τ) none Set.univ (m := cM) (r := rk k) (Finset.Subset.refl _)

theorem N_eq' (k : Fin 4) : (sS k).view.dmaCredit = N := by revert k; decide

/-- The four row blocks stored over any prior contents of the result buffer leave the closed form: every entry lies in
    one of the four blocks. -/
theorem out_writes_eq (c : Dev nD) (g : (cc0_stg1_0 : Ref sig .tc).ty.Contents (Elt F)) :
    (oM : Memref sig .tc .vmem S512x512 .f32).view.writes (Elt F) g
      [⟨rk 3, ov m ρ c 3⟩, ⟨rk 2, ov m ρ c 2⟩, ⟨rk 1, ov m ρ c 1⟩, ⟨rk 0, ov m ρ c 0⟩] = outAt m ρ c := by
  have hcov : ∀ y : S512x512.Idx, ∃ p ∈ ([⟨rk 3, ov m ρ c 3⟩, ⟨rk 2, ov m ρ c 2⟩, ⟨rk 1, ov m ρ c 1⟩, ⟨rk 0, ov m ρ c 0⟩] : List (View.Piece (Elt F) S512x512 .f32)), y ∈ p.1.set := fun y => by
    have hy : y ∈ Finset.univ.biUnion (fun k : Fin 4 => (rk k).set) := by rw [rk_cover]; exact Finset.mem_univ y
    obtain ⟨k, -, hk⟩ := Finset.mem_biUnion.mp hy
    fin_cases k
    · exact ⟨⟨rk 0, ov m ρ c 0⟩, .tail _ (.tail _ (.tail _ (.head _))), hk⟩
    · exact ⟨⟨rk 1, ov m ρ c 1⟩, .tail _ (.tail _ (.head _)), hk⟩
    · exact ⟨⟨rk 2, ov m ρ c 2⟩, .tail _ (.head _), hk⟩
    · exact ⟨⟨rk 3, ov m ρ c 3⟩, .head _, hk⟩
  unfold outAt
  exact (View.read_whole (Val := Elt F) cc0_stg1_0 _).symm.trans
    (View.read_writes_of_cover (v := (oM : Memref sig .tc .vmem S512x512 .f32).view) (f := g)
      (oM : Memref sig .tc .vmem S512x512 .f32).view (oM : Memref sig .tc .vmem S512x512 .f32).view.junk _ hcov)

/-- The same, the received rows read through what landed. -/
theorem out_final (c : Dev nD) (g : (cc0_stg1_0 : Ref sig .tc).ty.Contents (Elt F))
    (f0 f1 f2 f3 : Buf (Elt F) ((c : Thread nD τ).loc cc0_scratch1))
    (h0 : (cS 0).view.read (Elt F) f0 = sv m ρ (peer c) 0) (h1 : (cS 1).view.read (Elt F) f1 = sv m ρ (peer c) 1)
    (h2 : (cS 2).view.read (Elt F) f2 = sv m ρ (peer c) 2) (h3 : (cS 3).view.read (Elt F) f3 = sv m ρ (peer c) 3) :
    ((oM : Memref sig .tc .vmem S512x512 .f32).access (rk 3)).write (Elt F)
      (((oM : Memref sig .tc .vmem S512x512 .f32).access (rk 2)).write (Elt F)
        (((oM : Memref sig .tc .vmem S512x512 .f32).access (rk 1)).write (Elt F)
          (((oM : Memref sig .tc .vmem S512x512 .f32).access (rk 0)).write (Elt F) g
            (k0_pay6 (xld m ρ c (k0_off5 c) (k0_off5_inb c)) ((cS 0).view.read (Elt F) f0)) Finset.univ)
          (k0_pay7 (xld m ρ c (k0_off6 c) (k0_off6_inb c)) ((cS 1).view.read (Elt F) f1)) Finset.univ)
        (k0_pay8 (xld m ρ c (k0_off7 c) (k0_off7_inb c)) ((cS 2).view.read (Elt F) f2)) Finset.univ)
      (k0_pay9 (xld m ρ c (k0_off8 c) (k0_off8_inb c)) ((cS 3).view.read (Elt F) f3)) Finset.univ = outAt m ρ c := by
  rw [h0, h1, h2, h3]
  exact out_writes_eq m ρ c g

theorem sPts_of (c : Dev nD) (f : Buf (Elt F) ((c : Thread nD τ).loc cc0_scratch0)) :
    (((sM : Memref sig .tc .vmem S512x512 .bf16).view.loc (c : Thread nD τ)) ↦{fullShare} f : sProp 𝕄) = sAll c f := rfl
theorem cPts_of (c : Dev nD) (f : Buf (Elt F) ((c : Thread nD τ).loc cc0_scratch1)) :
    (((cM : Memref sig .tc .vmem S512x512 .bf16).view.loc (c : Thread nD τ)) ↦{fullShare} f : sProp 𝕄) = cAll c f := rfl

set_option maxHeartbeats 4000000 in
/-- The body, from its starting resources to what it leaves: the partner is signalled and handed the receive buffer, the
    four row blocks are cast and copied to the partner once its own signal has arrived, each row block that lands is
    added to the device's own column half and stored, and the copies' sources come back; the result buffer ends at
    `outAt`, the two scratch buffers whole, the eight own cells closed, nothing owed. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs poss reacheds payToks creds
  iintro ⟨⟨⟨⟨⟨#HIb, #HIs0, #HIs1, #HIs2, #HIs3, #HIr0, #HIr1, #HIr2, #HIr3, #HIbP, #HIrP0, #HIrP1, #HIrP2, #HIrP3⟩,
      ⟨HaB, HaS0, HaS1, HaS2, HaS3, HaR0, HaR1, HaR2, HaR3⟩,
      ⟨#HrBP, #HrRP0, #HrRP1, #HrRP2, #HrRP3, #HrS0, #HrS1, #HrS2, #HrS3⟩,
      ⟨HtBP, HtRP0, HtRP1, HtRP2, HtRP3, HtS0, HtS1, HtS2, HtS3⟩⟩,
      ⟨HcB, HcR0, HcR1, HcR2, HcR3⟩, #Hlev, ⟨%fs0, Hsb⟩, ⟨%fc0, Hcm⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁ O₂ O₃ Orecv sAll cAll
  ihave HS := (Entails.of_eq (show (((c : Thread nD τ).loc cc0_scratch0) ↦{fullShare} fs0 : sProp 𝕄) = ((sM : Memref sig .tc .vmem S512x512 .bf16).view.loc (c : Thread nD τ) ↦{fullShare} fs0) from rfl)) $$ Hsb
  ihave HC := (Entails.of_eq (show (((c : Thread nD τ).loc cc0_scratch1) ↦{fullShare} fc0 : sProp 𝕄) = ((cM : Memref sig .tc .vmem S512x512 .bf16).view.loc (c : Thread nD τ) ↦{fullShare} fc0) from rfl)) $$ Hcm
  ihave HX := (Entails.of_eq (show (((c : Thread nD τ).loc cc0_stg0_0) ↦{fullShare} xstg m ρ c : sProp 𝕄) = ((xM : Memref sig .tc .vmem S1x512x1024 .f32).view.loc (c : Thread nD τ) ↦{fullShare} xstg m ρ c) from rfl)) $$ Hx
  ihave HOut := (Entails.of_eq (show (((c : Thread nD τ).loc cc0_stg1_0) ↦{fullShare} g1 : sProp 𝕄) = ((oM : Memref sig .tc .vmem S512x512 .f32).view.loc (c : Thread nD τ) ↦{fullShare} g1) from rfl)) $$ Hout
  have hmw : (levAts L lv : sProp 𝕄) ⊢ MayWait (c : Thread nD τ) (.reg barS) ()
      (tallyAt (recvCell (peer c) 3) () N + tallyAt (recvCell (peer c) 2) () N + tallyAt (recvCell (peer c) 1) () N + tallyAt (recvCell (peer c) 0) () N) := mayWait_bar c
  sl_unfold [cc0_body]
  -- the signal to the partner (handing over the receive buffer), the first row block cast into the send buffer, the barrier wait
  sl_exec (disch := simp only [dev1_eq, dev2_eq, dev3_eq, dev4_eq, dev5_eq])
  -- the partner's receive buffer and the send buffer, row block by row block
  ihave HP := (Entails.of_eq ((cPts_of (F := F) (peer c) HaB_pay1_v).trans (cAll_split (F := F) (peer c) HaB_pay1_v))) $$ HaB_pay1
  icases HP with ⟨HP0, HP1, HP2, HP3⟩
  ihave HS' := (Entails.of_eq ((sPts_of (F := F) c _).trans (sAll_split (F := F) c _))) $$ HS
  icases HS' with ⟨HS0, HS1, HS2, HS3⟩
  -- row block 0 goes to the partner
  iapply (wp_send_blk m ρ c (peer c) rfl 0 _ (View.read_write_univ _ _) HaB_pay1_v _
      (tallyAt (recvCell (peer c) 3) () N + tallyAt (recvCell (peer c) 2) () N + tallyAt (recvCell (peer c) 1) () N) rfl _ (K (c, 1)) (K (peer c, 5))) $$ [HS0 HP0 HO HtS0 HtRP0]
  · isplitr; · iexact HIs0
    isplitr; · iexact HIrP0
    isplitl [HS0]; · iexact HS0
    isplitl [HP0]; · iexact HP0
    isplitl [HO]; · iexact HO
    isplitl [HtS0]; · iexact HtS0
    isplitr; · iexact HrS0
    isplitl [HtRP0]; · iexact HtRP0
    iexact HrRP0
  iintro ⟨HcS0, HO⟩
  simp only [Prog.lift, Prog.bind_op, Prog.bind_ret, Prog.pure_eq_ret]
  -- row block 1: cast, stored, sent
  iapply (wp_load 𝒱₀ (c : Thread nD τ) none Set.univ (m := xM) (Finset.subset_univ _)) $$ HX; iintro HX
  iapply (wp_load_sblk c 1 _) $$ HS1; iintro HS1
  iapply (wp_store_sblk c 1 _) $$ HS1; iintro HS1
  iapply (wp_send_blk m ρ c _ (dev3_eq c) 1 _ (View.read_write_univ _ _) HaB_pay1_v _
      (tallyAt (recvCell (peer c) 3) () N + tallyAt (recvCell (peer c) 2) () N) rfl _ (K (c, 2)) (K (peer c, 6))) $$ [HS1 HP1 HO HtS1 HtRP1]
  · isplitr; · iexact HIs1
    isplitr; · iexact HIrP1
    isplitl [HS1]; · iexact HS1
    isplitl [HP1]; · iexact HP1
    isplitl [HO]; · iexact HO
    isplitl [HtS1]; · iexact HtS1
    isplitr; · iexact HrS1
    isplitl [HtRP1]; · iexact HtRP1
    iexact HrRP1
  iintro ⟨HcS1, HO⟩
  -- row block 2: cast, stored, sent
  iapply (wp_load 𝒱₀ (c : Thread nD τ) none Set.univ (m := xM) (Finset.subset_univ _)) $$ HX; iintro HX
  iapply (wp_load_sblk c 2 _) $$ HS2; iintro HS2
  rw [wp_ret]; imodintro
  simp only [k0_part3_eq_skeleton, k0_part4_eq_skeleton, k0_part5_eq_skeleton, k0_part6_eq_skeleton]
  unfold k0_part3_skel k0_part4_skel k0_part5_skel k0_part6_skel
  simp only [Prog.lift, Prog.bind_op, Prog.bind_ret, Prog.pure_eq_ret]
  -- row block 2: stored (its cast was read above), sent
  iapply (wp_store_sblk c 2 _) $$ HS2; iintro HS2
  iapply (wp_send_blk m ρ c _ (dev4_eq c) 2 _ (View.read_write_univ _ _) HaB_pay1_v _
      (tallyAt (recvCell (peer c) 3) () N) rfl _ (K (c, 3)) (K (peer c, 7))) $$ [HS2 HP2 HO HtS2 HtRP2]
  · isplitr; · iexact HIs2
    isplitr; · iexact HIrP2
    isplitl [HS2]; · iexact HS2
    isplitl [HP2]; · iexact HP2
    isplitl [HO]; · iexact HO
    isplitl [HtS2]; · iexact HtS2
    isplitr; · iexact HrS2
    isplitl [HtRP2]; · iexact HtRP2
    iexact HrRP2
  iintro ⟨HcS2, HO⟩
  -- row block 3: cast, stored, sent; nothing is owed after it
  iapply (wp_load 𝒱₀ (c : Thread nD τ) none Set.univ (m := xM) (Finset.subset_univ _)) $$ HX; iintro HX
  iapply (wp_load_sblk c 3 _) $$ HS3; iintro HS3
  iapply (wp_store_sblk c 3 _) $$ HS3; iintro HS3
  iapply (wp_send_blk m ρ c _ (dev5_eq c) 3 _ (View.read_write_univ _ _) HaB_pay1_v _
      0 (zero_add _).symm _ (K (c, 4)) (K (peer c, 8))) $$ [HS3 HP3 HO HtS3 HtRP3]
  · isplitr; · iexact HIs3
    isplitr; · iexact HIrP3
    isplitl [HS3]; · iexact HS3
    isplitl [HP3]; · iexact HP3
    isplitl [HO]; · iexact HO
    isplitl [HtS3]; · iexact HtS3
    isplitr; · iexact HrS3
    isplitl [HtRP3]; · iexact HtRP3
    iexact HrRP3
  iintro ⟨HcS3, HO⟩
  -- row block 0 arrives: the partner's cast rows; they are added to the device's own column half and stored
  iapply (Rounds.wp_wait_rest_token 𝒱₀ ER (rd m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (N_eq 0).trans (expect_recv m ρ c 0).symm)) $$ [HcR0 HO HaR0]
  · isplitr; · iexact HIr0
    isplitl [HcR0]; · iexact HcR0
    isplitl [HO]; · iexact HO
    isplitr; · rw [MayWait_zero]; iempintro
    iexact HaR0
  iintro ⟨HO, HaR0, -, Hpay⟩
  ihave Hp := (Entails.of_eq (rest_recv m ρ c 0)) $$ Hpay
  unfold recvPay
  icases Hp with ⟨%fr0, %hfr0, HC0⟩
  iapply (wp_load 𝒱₀ (c : Thread nD τ) none Set.univ (m := xM) (Finset.subset_univ _)) $$ HX; iintro HX
  iapply (wp_load_cblk c 0 _) $$ HC0; iintro HC0
  iapply (wp_load 𝒱₀ (c : Thread nD τ) none Set.univ (m := oM) (Finset.subset_univ _)) $$ HOut; iintro HOut
  iapply (wp_store 𝒱₀ (c : Thread nD τ) none Set.univ (m := oM) (r := rk 0) (Mk := Finset.univ) (Finset.subset_univ _)) $$ HOut; iintro HOut
  -- row block 1 arrives
  iapply (Rounds.wp_wait_rest_token 𝒱₀ ER (rd m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (N_eq 1).trans (expect_recv m ρ c 1).symm)) $$ [HcR1 HO HaR1]
  · isplitr; · iexact HIr1
    isplitl [HcR1]; · iexact HcR1
    isplitl [HO]; · iexact HO
    isplitr; · rw [MayWait_zero]; iempintro
    iexact HaR1
  iintro ⟨HO, HaR1, -, Hpay⟩
  ihave Hp := (Entails.of_eq (rest_recv m ρ c 1)) $$ Hpay
  unfold recvPay
  icases Hp with ⟨%fr1, %hfr1, HC1⟩
  iapply (wp_load 𝒱₀ (c : Thread nD τ) none Set.univ (m := xM) (Finset.subset_univ _)) $$ HX; iintro HX
  iapply (wp_load_cblk c 1 _) $$ HC1; iintro HC1
  iapply (wp_load 𝒱₀ (c : Thread nD τ) none Set.univ (m := oM) (Finset.subset_univ _)) $$ HOut; iintro HOut
  iapply (wp_store 𝒱₀ (c : Thread nD τ) none Set.univ (m := oM) (r := rk 1) (Mk := Finset.univ) (Finset.subset_univ _)) $$ HOut; iintro HOut
  -- row block 2 arrives
  iapply (Rounds.wp_wait_rest_token 𝒱₀ ER (rd m ρ) (c : Thread nD τ) none (κ := K (c, 7))
      (wpE_waitDma2_eq 𝒱₀ (c : Thread nD τ) none Set.univ) (Set.mem_univ _) () (O := 0) (R := 0) (m := 0) (T := ∅)
      (by rw [Nat.zero_add]; exact (N_eq 2).trans (expect_recv m ρ c 2).symm)) $$ [HcR2 HO HaR2]
  · isplitr; · iexact HIr2
    isplitl [HcR2]; · iexact HcR2
    isplitl [HO]; · iexact HO
    isplitr; · rw [MayWait_zero]; iempintro
    iexact HaR2
  iintro ⟨HO, HaR2, -, Hpay⟩
  ihave Hp := (Entails.of_eq (rest_recv m ρ c 2)) $$ Hpay
  unfold recvPay
  icases Hp with ⟨%fr2, %hfr2, HC2⟩
  iapply (wp_load 𝒱₀ (c : Thread nD τ) none Set.univ (m := xM) (Finset.subset_univ _)) $$ HX; iintro HX
  iapply (wp_load_cblk c 2 _) $$ HC2; iintro HC2
  iapply (wp_load 𝒱₀ (c : Thread nD τ) none Set.univ (m := oM) (Finset.subset_univ _)) $$ HOut; iintro HOut
  iapply (wp_store 𝒱₀ (c : Thread nD τ) none Set.univ (m := oM) (r := rk 2) (Mk := Finset.univ) (Finset.subset_univ _)) $$ HOut; iintro HOut
  -- row block 3 arrives
  iapply (Rounds.wp_wait_rest_token 𝒱₀ ER (rd m ρ) (c : Thread nD τ) none (κ := K (c, 8))
      (wpE_waitDma2_eq 𝒱₀ (c : Thread nD τ) none Set.univ) (Set.mem_univ _) () (O := 0) (R := 0) (m := 0) (T := ∅)
      (by rw [Nat.zero_add]; exact (N_eq 3).trans (expect_recv m ρ c 3).symm)) $$ [HcR3 HO HaR3]
  · isplitr; · iexact HIr3
    isplitl [HcR3]; · iexact HcR3
    isplitl [HO]; · iexact HO
    isplitr; · rw [MayWait_zero]; iempintro
    iexact HaR3
  iintro ⟨HO, HaR3, -, Hpay⟩
  ihave Hp := (Entails.of_eq (rest_recv m ρ c 3)) $$ Hpay
  unfold recvPay
  icases Hp with ⟨%fr3, %hfr3, HC3⟩
  iapply (wp_load 𝒱₀ (c : Thread nD τ) none Set.univ (m := xM) (Finset.subset_univ _)) $$ HX; iintro HX
  iapply (wp_load_cblk c 3 _) $$ HC3; iintro HC3
  iapply (wp_load 𝒱₀ (c : Thread nD τ) none Set.univ (m := oM) (Finset.subset_univ _)) $$ HOut; iintro HOut
  iapply (wp_store 𝒱₀ (c : Thread nD τ) none Set.univ (m := oM) (r := rk 3) (Mk := Finset.univ) (Finset.subset_univ _)) $$ HOut; iintro HOut
  -- the four copies' sources come back
  iapply (Rounds.wp_wait_rest_token 𝒱₀ ER (rd m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (N_eq' 0).trans (expect_send m ρ c 0).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Hp := (Entails.of_eq (rest_send m ρ c 0)) $$ Hpay
  unfold sendPay
  icases Hp with ⟨%fq0, HS0⟩
  iapply (Rounds.wp_wait_rest_token 𝒱₀ ER (rd m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (N_eq' 1).trans (expect_send m ρ c 1).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Hp := (Entails.of_eq (rest_send m ρ c 1)) $$ Hpay
  unfold sendPay
  icases Hp with ⟨%fq1, HS1⟩
  iapply (Rounds.wp_wait_rest_token 𝒱₀ ER (rd m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (N_eq' 2).trans (expect_send m ρ c 2).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Hp := (Entails.of_eq (rest_send m ρ c 2)) $$ Hpay
  unfold sendPay
  icases Hp with ⟨%fq2, HS2⟩
  iapply (Rounds.wp_wait_rest_token 𝒱₀ ER (rd m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (N_eq' 3).trans (expect_send m ρ c 3).symm)) $$ [HcS3 HO HaS3]
  · isplitr; · iexact HIs3
    isplitl [HcS3]; · iexact HcS3
    isplitl [HO]; · iexact HO
    isplitr; · rw [MayWait_zero]; iempintro
    iexact HaS3
  iintro ⟨HO, HaS3, -, Hpay⟩
  ihave Hp := (Entails.of_eq (rest_send m ρ c 3)) $$ Hpay
  unfold sendPay
  icases Hp with ⟨%fq3, HS3⟩
  -- the eight own cells close: nothing more can land on them, their counters stand at zero
  imod (Rounds.cell_close ER (rd m ρ) (Set.mem_univ (K (c, 1))) (fun h => h) (R := 0 + 1) (duties_later m ρ (sendCell c 0))) $$ [HaS0] with HzS0
  · isplitr; · iexact HIs0
    iexact HaS0
  imod (Rounds.cell_close ER (rd m ρ) (Set.mem_univ (K (c, 2))) (fun h => h) (R := 0 + 1) (duties_later m ρ (sendCell c 1))) $$ [HaS1] with HzS1
  · isplitr; · iexact HIs1
    iexact HaS1
  imod (Rounds.cell_close ER (rd m ρ) (Set.mem_univ (K (c, 3))) (fun h => h) (R := 0 + 1) (duties_later m ρ (sendCell c 2))) $$ [HaS2] with HzS2
  · isplitr; · iexact HIs2
    iexact HaS2
  imod (Rounds.cell_close ER (rd m ρ) (Set.mem_univ (K (c, 4))) (fun h => h) (R := 0 + 1) (duties_later m ρ (sendCell c 3))) $$ [HaS3] with HzS3
  · isplitr; · iexact HIs3
    iexact HaS3
  imod (Rounds.cell_close ER (rd m ρ) (Set.mem_univ (K (c, 5))) (fun h => h) (R := 0 + 1) (duties_later m ρ (recvCell c 0))) $$ [HaR0] with HzR0
  · isplitr; · iexact HIr0
    iexact HaR0
  imod (Rounds.cell_close ER (rd m ρ) (Set.mem_univ (K (c, 6))) (fun h => h) (R := 0 + 1) (duties_later m ρ (recvCell c 1))) $$ [HaR1] with HzR1
  · isplitr; · iexact HIr1
    iexact HaR1
  imod (Rounds.cell_close ER (rd m ρ) (Set.mem_univ (K (c, 7))) (fun h => h) (R := 0 + 1) (duties_later m ρ (recvCell c 2))) $$ [HaR2] with HzR2
  · isplitr; · iexact HIr2
    iexact HaR2
  imod (Rounds.cell_close ER (rd m ρ) (Set.mem_univ (K (c, 8))) (fun h => h) (R := 0 + 1) (duties_later m ρ (recvCell c 3))) $$ [HaR3] with HzR3
  · isplitr; · iexact HIr3
    iexact HaR3
  rw [wp_ret]; imodintro
  iapply Hk
  unfold bodyPost Φ₁ Dat.owesAt Pipeline.owesWithin
  rw [show (dats m ρ 0 c).owed t₀.succ = 0 from rfl]
  isplitl [HS0 HS1 HS2 HS3 HC0 HC1 HC2 HC3 HzS0 HzS1 HzS2 HzS3 HzR0 HzR1 HzR2 HzR3]
  · isplitl [HS0 HS1 HS2 HS3]
    · iapply (sAll_join (F := F) c fq0 fq1 fq2 fq3)
      isplitl [HS0]; · iexact HS0
      isplitl [HS1]; · iexact HS1
      isplitl [HS2]; · iexact HS2
      iexact HS3
    isplitl [HC0 HC1 HC2 HC3]
    · iapply (cAll_join (F := F) c fr0 fr1 fr2 fr3)
      isplitl [HC0]; · iexact HC0
      isplitl [HC1]; · iexact HC1
      isplitl [HC2]; · iexact HC2
      iexact HC3
    isplitl [HzS0]; · iexact HzS0
    isplitl [HzS1]; · iexact HzS1
    isplitl [HzS2]; · iexact HzS2
    isplitl [HzS3]; · iexact HzS3
    isplitl [HzR0]; · iexact HzR0
    isplitl [HzR1]; · iexact HzR1
    isplitl [HzR2]; · iexact HzR2
    iexact HzR3
  isplitl [HO]
  · iexists _
    isplitr
    on_goal 2 => iexact HO
    ipureintro; exact fun _ _ => Or.inl trivial
  isplitl [HX]
  · iexists _; isplitr; · (ipureintro; rfl)
    iexact HX
  iexists _
  isplitr
  on_goal 2 => iexact HOut
  ipureintro
  exact out_final m ρ c g1 fr0 fr1 fr2 fr3 hfr0 hfr1 hfr2 hfr3

set_option maxHeartbeats 4000000 in
set_option maxRecDepth 8000 in
/-- The library's body obligation on device `c`: the starting resources regrouped, the ghost state's names opened. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hs, Hc⟩, Ho, Hx, Hout⟩
  iapply (sound_body m ρ K c fun _ => bodyPost m ρ c)
  unfold bodyPre
  isplitr []
  · isplitl [Hg Hcr Hlev Hs Hc]
    · isplitl [Hg]; · iexact Hg
      isplitl [Hcr]; · iexact Hcr
      isplitl [Hlev]; · iexact Hlev
      isplitl [Hs]; · iexact Hs
      iexact Hc
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Cert.KernelIdealProof
end
-- ==== Proof.Value.lean ====
import proofs.«901036_g7700000000001037_dist_rs_v7x_xyz2x2x4_x_m512_n512_f32_1_alg».proof.Defs
import proofs.«901036_g7700000000001037_dist_rs_v7x_xyz2x2x4_x_m512_n512_f32_1_alg».proof.Proof.Gen.ReferenceIdeal
import proofs.«901036_g7700000000001037_dist_rs_v7x_xyz2x2x4_x_m512_n512_f32_1_alg».proof.Proof.Gen.ReferenceIdeal.Run
import proofs.«901036_g7700000000001037_dist_rs_v7x_xyz2x2x4_x_m512_n512_f32_1_alg».proof.Proof.Gen.ReferenceIdeal.Read
import proofs.«901036_g7700000000001037_dist_rs_v7x_xyz2x2x4_x_m512_n512_f32_1_alg».proof.Proof.Gen.Pre_finite_inputs_Kernel
import proofs.«901036_g7700000000001037_dist_rs_v7x_xyz2x2x4_x_m512_n512_f32_1_alg».proof.Proof.Gen.Pre_finite_inputs_ReferenceIdeal
import proofs.«901036_g7700000000001037_dist_rs_v7x_xyz2x2x4_x_m512_n512_f32_1_alg».proof.Proof.KernelIdealHand.Proto
import proofs.«901036_g7700000000001037_dist_rs_v7x_xyz2x2x4_x_m512_n512_f32_1_alg».proof.Proof.KernelIdealHand.Arrays
import Idealize.ShloMosaic.Lib.Layout
import Idealize.ShloMosaic.Lib.ValueIdx
import Idealize.ShloMosaic.Lib.Pipeline.Value
import Idealize.ShloMosaic.Lib.ValueLayout
import Idealize.ShloMosaic.Lib.WritesUnit
import Idealize.ShloMosaic.PureOps.Ideal.Laws

/-!
# The value of the two-device reduce-scatter, over the extended reals

The whole argument `X` has shape 2 × 512 × 1024 and is cut along its first axis over the first mesh axis: device `c`,
whose first mesh coordinate is `p = c / 8`, holds `X[p]`; its partner holds `X[1 - p]`. The reference sums the two
slabs: entry `(i, l)` of its result is `0 + (X[0, i, l] + X[1, i, l])`. The result, of shape 512 × 1024, is cut along
its columns over the same mesh axis: device `c` owes columns `512 p … 512 p + 511`.

Device `c` stores, in row block `k` of its result, its own column half `512 p + j` of rows `128 k + r` plus what its
partner sent for that row block, which is the partner's entries at columns `512 - 512 (1 - p) + j = 512 p + j` of the
same rows (format changes are the identity over the extended reals, the shape casts only drop the leading unit
axis). So entry `(i, j)` of the device's result is `X[p, i, 512 p + j] + X[1 - p, i, 512 p + j]`: the reference's
entry `(i, 512 p + j)` by `0 + x = x` and, for `p = 1`, commutativity of the sum.
-/

noncomputable section

namespace Cert.ValueProof

open Idealize.ShloMosaic Idealize.ShloMosaic.TcCoe Idealize.SL.Sem
open Idealize.ShloMosaic.ValueIdx
open Cert.KernelIdeal Cert.KernelIdeal.Gen Cert.KernelIdealProof

/-! ## The reference's frame -/

theorem frame_ri : Cert.frame_ReferenceIdeal :=
  fun m ρ _ => (θ_run Cert.ReferenceIdeal.defs _ _).mono (fun _ h c => (h c).2) (Cert.ReferenceIdeal.Value.run (F := Ideal) m ρ)

/-! ## Devices: the first mesh coordinate, the partner's, the block a device holds -/

theorem coord_lt (c : Dev nD) : c.val / 8 < 2 := by
  have h : c.val < 16 := c.isLt
  omega

theorem peer_coord (c : Dev nD) : (peer c).val / 8 = 1 - c.val / 8 := by revert c; decide

theorem meshLin_first (c : Dev nD) : Layout.meshLin [2, 2, 4] c.val [0] = c.val / 8 := by revert c; decide

variable (m : (ℓ : Loc nD τ sig) → Buf (Elt Ideal) ℓ) (ρ : Dev nD → PrngReg)
variable (X : (⟨3, ![2, 512, 1024]⟩ : Shape).Idx → EReal)

/-- Device `c`'s argument block as a function of its index. -/
def xc (c : Dev nD) : S1x512x1024.Idx → EReal := m ((c : Thread nD τ).loc main_arg0)

/-- Every device's argument block is its slab of the whole array. -/
def Agree : Prop := ∀ c : Dev nD,
  m ((c : Thread nD τ).loc main_arg0)
    = Layout.blockN ⟨3, ![1, 512, 1024]⟩ ⟨3, ![2, 512, 1024]⟩ (Layout.meshBlock [2, 2, 4] ![[0], [], []] c) X

/-- Entry `(0, a, b)` of device `c`'s block is entry `(c / 8, a, b)` of the whole array. -/
theorem xc_apply (hA : Agree m X) (c : Dev nD) (d : Fin 2) (hd : d.val = c.val / 8) (a : Fin 512) (b : Fin 1024) :
    xc m c (ix3 (0 : Fin 1) a b) = X (ix3 d a b) := by
  unfold xc
  rw [hA c, Layout.blockN_apply]
  refine congrArg X (funext fun t => Fin.ext ?_)
  match t with
  | ⟨0, _⟩ =>
    show Layout.meshLin [2, 2, 4] c.val [0] * 1 + 0 = d.val
    rw [meshLin_first, hd]; omega
  | ⟨1, _⟩ =>
    show 0 * 512 + a.val = a.val
    omega
  | ⟨2, _⟩ =>
    show 0 * 1024 + b.val = b.val
    omega

/-! ## The staged block and its 128-row pieces -/

/-- The pipeline stages the whole block: the staged contents are the device's argument block. -/
theorem xstg_eq (c : Dev nD) : xstg m ρ c = xc m c :=
  Memref.read_access_unit_zero (Elt Ideal) main_arg0 (funext fun a => Nat.zero_mul _) _ _

/-- A piece of the staged block at offsets `off` reads the block at the offsets plus the piece's index. -/
theorem xld_apply (c : Dev nD) (off : Fin 3 → ℕ) (inb : ∀ a, off a + S1x128x512.size a ≤ S1x512x1024.size a)
    (r : Fin 128) (j : Fin 512) (a : Fin 512) (b : Fin 1024)
    (h0 : off 0 = 0) (ha : a.val = off 1 + r.val) (hb : b.val = off 2 + j.val) :
    xld m ρ c off inb (ix3 (0 : Fin 1) r j) = xc m c (ix3 (0 : Fin 1) a b) := by
  show xstg m ρ c ((Rect.unit (s := S1x512x1024) off S1x128x512.size inb).toLoadRect.idx (ix3 (0 : Fin 1) r j)) = _
  rw [xstg_eq]
  refine congrArg (xc m c) (funext fun t => Fin.ext ?_)
  match t with
  | ⟨0, _⟩ =>
    show off 0 + 1 * 0 = 0
    omega
  | ⟨1, _⟩ =>
    show off 1 + 1 * r.val = a.val
    omega
  | ⟨2, _⟩ =>
    show off 2 + 1 * j.val = b.val
    omega

/-! ## The payloads at an index

Over the extended reals a change of float format is the identity; the shape casts drop the leading unit axis or do
nothing. A sent row block is the loaded piece re-indexed; a stored one adds the received row block to it. -/

theorem pay1_apply (v : Vec Ideal S1x128x512 .f32) (r : Fin 128) (j : Fin 512) :
    (k0_pay1 (F := Ideal) v (ix2 r j) : EReal) = v (ix3 (0 : Fin 1) r j) := by
  unfold k0_pay1
  refine (congrFun (shapeCast_self _ _) (ix2 r j)).trans ?_
  exact shapeCast_1ab_ab_apply v _ r j

theorem pay2_apply (v : Vec Ideal S1x128x512 .f32) (r : Fin 128) (j : Fin 512) :
    (k0_pay2 (F := Ideal) v (ix2 r j) : EReal) = v (ix3 (0 : Fin 1) r j) := by
  unfold k0_pay2
  refine (congrFun (shapeCast_self _ _) (ix2 r j)).trans ?_
  exact shapeCast_1ab_ab_apply v _ r j

theorem pay43_apply (v : Vec Ideal S1x128x512 .f32) (r : Fin 128) (j : Fin 512) :
    (k0_pay4 (F := Ideal) (k0_pay3 (F := Ideal) v) (ix2 r j) : EReal) = v (ix3 (0 : Fin 1) r j) := by
  unfold k0_pay4 k0_pay3
  refine (congrFun (shapeCast_self _ _) (ix2 r j)).trans ?_
  exact shapeCast_1ab_ab_apply v _ r j

theorem pay5_apply (v : Vec Ideal S1x128x512 .f32) (r : Fin 128) (j : Fin 512) :
    (k0_pay5 (F := Ideal) v (ix2 r j) : EReal) = v (ix3 (0 : Fin 1) r j) := by
  unfold k0_pay5
  refine (congrFun (shapeCast_self _ _) (ix2 r j)).trans ?_
  exact shapeCast_1ab_ab_apply v _ r j

theorem pay6_apply (v : Vec Ideal S1x128x512 .f32) (u : Vec Ideal S128x512 .bf16) (r : Fin 128) (j : Fin 512) :
    (k0_pay6 (F := Ideal) v u (ix2 r j) : EReal) = (show EReal from v (ix3 (0 : Fin 1) r j)) + (show EReal from u (ix2 r j)) := by
  unfold k0_pay6
  exact congrArg (· + (show EReal from u (ix2 r j))) (shapeCast_1ab_ab_apply v _ r j)

theorem pay7_apply (v : Vec Ideal S1x128x512 .f32) (u : Vec Ideal S128x512 .bf16) (r : Fin 128) (j : Fin 512) :
    (k0_pay7 (F := Ideal) v u (ix2 r j) : EReal) = (show EReal from v (ix3 (0 : Fin 1) r j)) + (show EReal from u (ix2 r j)) := by
  unfold k0_pay7
  exact congrArg (· + (show EReal from u (ix2 r j))) (shapeCast_1ab_ab_apply v _ r j)

theorem pay8_apply (v : Vec Ideal S1x128x512 .f32) (u : Vec Ideal S128x512 .bf16) (r : Fin 128) (j : Fin 512) :
    (k0_pay8 (F := Ideal) v u (ix2 r j) : EReal) = (show EReal from v (ix3 (0 : Fin 1) r j)) + (show EReal from u (ix2 r j)) := by
  unfold k0_pay8
  exact congrArg (· + (show EReal from u (ix2 r j))) (shapeCast_1ab_ab_apply v _ r j)

theorem pay9_apply (v : Vec Ideal S1x128x512 .f32) (u : Vec Ideal S128x512 .bf16) (r : Fin 128) (j : Fin 512) :
    (k0_pay9 (F := Ideal) v u (ix2 r j) : EReal) = (show EReal from v (ix3 (0 : Fin 1) r j)) + (show EReal from u (ix2 r j)) := by
  unfold k0_pay9
  exact congrArg (· + (show EReal from u (ix2 r j))) (shapeCast_1ab_ab_apply v _ r j)

/-! ## What a device sends and what it stores -/

theorem add_congr {x x' y y' : EReal} (h : x = x') (h' : y = y') : x + y = x' + y' := by rw [h, h']

/-- A piece of device `c`'s staged block at row offset `o1` and column offset `o2`, read in the whole array. -/
theorem xld_X (hA : Agree m X) (c : Dev nD) (off : Fin 3 → ℕ) (inb : ∀ a, off a + S1x128x512.size a ≤ S1x512x1024.size a)
    (o1 o2 : ℕ) (hoff : off = ![0, o1, o2]) (r : Fin 128) (j : Fin 512) (d : Fin 2) (a : Fin 512) (b : Fin 1024)
    (hd : d.val = c.val / 8) (ha : a.val = o1 + r.val) (hb : b.val = o2 + j.val) :
    xld m ρ c off inb (ix3 (0 : Fin 1) r j) = X (ix3 d a b) := by
  subst hoff
  exact (xld_apply m ρ c _ inb r j a b rfl ha hb).trans (xc_apply m X hA c d hd a b)

/-- Row `r`, column `j` of what device `c` sends in row block `k`: its entry at row `128 k + r` and the partner's
    column `512 - 512 (c / 8) + j`. -/
theorem sv_apply (hA : Agree m X) (c : Dev nD) (k : Fin 4) (r : Fin 128) (j : Fin 512)
    (d : Fin 2) (a : Fin 512) (b : Fin 1024)
    (hd : d.val = c.val / 8) (ha : a.val = 128 * k.val + r.val) (hb : b.val = 512 - 512 * (c.val / 8) + j.val) :
    (sv m ρ c k (ix2 r j) : EReal) = X (ix3 d a b) := by
  obtain ⟨kv, hk⟩ := k
  match kv, hk with
  | 0, _ =>
    have ha' : a.val = 0 + r.val := ha
    exact (pay1_apply _ r j).trans (xld_X m ρ X hA c _ _ _ _ (k0_off1_eq c) r j d a b hd ha' hb)
  | 1, _ =>
    have ha' : a.val = 128 + r.val := ha
    exact (pay2_apply _ r j).trans (xld_X m ρ X hA c _ _ _ _ (k0_off2_eq c) r j d a b hd ha' hb)
  | 2, _ =>
    have ha' : a.val = 256 + r.val := ha
    exact (pay43_apply _ r j).trans (xld_X m ρ X hA c _ _ _ _ (k0_off3_eq c) r j d a b hd ha' hb)
  | 3, _ =>
    have ha' : a.val = 384 + r.val := ha
    exact (pay5_apply _ r j).trans (xld_X m ρ X hA c _ _ _ _ (k0_off4_eq c) r j d a b hd ha' hb)
  | n + 4, h => exact absurd h (by omega)

/-- Row `r`, column `j` of what device `c` stores in row block `k`: the two slabs' entries at row `128 k + r`, column
    `512 (c / 8) + j`, the device's own first. -/
theorem ov_apply (hA : Agree m X) (c : Dev nD) (k : Fin 4) (r : Fin 128) (j : Fin 512)
    (d d' : Fin 2) (a : Fin 512) (b : Fin 1024)
    (hd : d.val = c.val / 8) (hd' : d'.val = 1 - c.val / 8) (ha : a.val = 128 * k.val + r.val) (hb : b.val = 512 * (c.val / 8) + j.val) :
    (ov m ρ c k (ix2 r j) : EReal) = X (ix3 d a b) + X (ix3 d' a b) := by
  have hc := coord_lt c
  have hp := peer_coord c
  have hsv : (sv m ρ (peer c) k (ix2 r j) : EReal) = X (ix3 d' a b) :=
    sv_apply m ρ X hA (peer c) k r j d' a b (by omega) ha (by omega)
  obtain ⟨kv, hk⟩ := k
  match kv, hk with
  | 0, _ =>
    have ha' : a.val = 0 + r.val := ha
    refine (pay6_apply _ _ r j).trans ?_
    exact add_congr (xld_X m ρ X hA c _ _ _ _ (k0_off5_eq c) r j d a b hd ha' hb) hsv
  | 1, _ =>
    have ha' : a.val = 128 + r.val := ha
    refine (pay7_apply _ _ r j).trans ?_
    exact add_congr (xld_X m ρ X hA c _ _ _ _ (k0_off6_eq c) r j d a b hd ha' hb) hsv
  | 2, _ =>
    have ha' : a.val = 256 + r.val := ha
    refine (pay8_apply _ _ r j).trans ?_
    exact add_congr (xld_X m ρ X hA c _ _ _ _ (k0_off7_eq c) r j d a b hd ha' hb) hsv
  | 3, _ =>
    have ha' : a.val = 384 + r.val := ha
    refine (pay9_apply _ _ r j).trans ?_
    exact add_congr (xld_X m ρ X hA c _ _ _ _ (k0_off8_eq c) r j d a b hd ha' hb) hsv
  | n + 4, h => exact absurd h (by omega)

/-! ## The result block read row block by row block

The four stores go to disjoint row blocks, the last one (rows 384 to 511) newest. An index in row block `k` misses
every newer store and reads the store of row block `k` at its position in the block. -/

theorem outAt_apply (c : Dev nD) (k : Fin 4) (r : Fin 128) (j : Fin 512) (y : S512x512.Idx)
    (h0 : (y 0).val = 128 * k.val + r.val) (h1 : (y 1).val = j.val) :
    outAt m ρ c y = ov m ρ c k (ix2 r j) := by
  have hr : r.val < 128 := r.isLt
  unfold outAt
  obtain ⟨kv, hk⟩ := k
  match kv, hk with
  | 3, _ =>
    have h0' : (y 0).val = 384 + r.val := h0
    exact View.read_writes_cons_rows_of_mem _ _ _ _ _ y (ix2 r j) (o := 384) rfl h0' h1
  | 2, _ =>
    have h0' : (y 0).val = 256 + r.val := h0
    refine (View.read_writes_cons_rows_of_not_mem _ _ _ _ _ y (o := 384) (W := 128) rfl rfl (.inl (by omega))).trans ?_
    exact View.read_writes_cons_rows_of_mem _ _ _ _ _ y (ix2 r j) (o := 256) rfl h0' h1
  | 1, _ =>
    have h0' : (y 0).val = 128 + r.val := h0
    refine (View.read_writes_cons_rows_of_not_mem _ _ _ _ _ y (o := 384) (W := 128) rfl rfl (.inl (by omega))).trans ?_
    refine (View.read_writes_cons_rows_of_not_mem _ _ _ _ _ y (o := 256) (W := 128) rfl rfl (.inl (by omega))).trans ?_
    exact View.read_writes_cons_rows_of_mem _ _ _ _ _ y (ix2 r j) (o := 128) rfl h0' h1
  | 0, _ =>
    have h0' : (y 0).val = 0 + r.val := h0
    refine (View.read_writes_cons_rows_of_not_mem _ _ _ _ _ y (o := 384) (W := 128) rfl rfl (.inl (by omega))).trans ?_
    refine (View.read_writes_cons_rows_of_not_mem _ _ _ _ _ y (o := 256) (W := 128) rfl rfl (.inl (by omega))).trans ?_
    refine (View.read_writes_cons_rows_of_not_mem _ _ _ _ _ y (o := 128) (W := 128) rfl rfl (.inl (by omega))).trans ?_
    exact View.read_writes_cons_rows_of_mem _ _ _ _ _ y (ix2 r j) (o := 0) rfl h0' h1
  | n + 4, h => exact absurd h (by omega)

/-! ## The reference at an index -/

/-- The reference's entry `(a, b)` is the two slabs' entries there, summed onto zero. -/
theorem ref_apply (a : Fin 512) (b : Fin 1024) :
    Cert.ReferenceIdeal.Read.val_main_v0 (F := Ideal) X (ix2 a b) = X (ix3 (0 : Fin 2) a b) + X (ix3 (1 : Fin 2) a b) := by
  have e0 : Cert.ReferenceIdeal.Read.idx_main_v0 (ix2 a b) 0 = ix3 (0 : Fin 2) a b :=
    funext fun t => Fin.ext (by match t with | ⟨0, _⟩ => rfl | ⟨1, _⟩ => rfl | ⟨2, _⟩ => rfl)
  have e1 : Cert.ReferenceIdeal.Read.idx_main_v0 (ix2 a b) 1 = ix3 (1 : Fin 2) a b :=
    funext fun t => Fin.ext (by match t with | ⟨0, _⟩ => rfl | ⟨1, _⟩ => rfl | ⟨2, _⟩ => rfl)
  rw [Cert.ReferenceIdeal.Read.val_main_v0_apply, Cert.ReferenceIdeal.Read.val_main_cst_apply, Fin.sum_univ_two, e0, e1]
  show Ideal.ofBits .f32 0x00000000#32 + _ = _
  rw [Ideal.ofBits_zero_f32, zero_add]

/-! ## Each device's result is its column block of the reference's -/

theorem out_eq (hA : Agree m X) (c : Dev nD) :
    outAt m ρ c
      = Layout.blockN ⟨2, ![512, 512]⟩ ⟨2, ![512, 1024]⟩ (Layout.meshBlock [2, 2, 4] ![[], [0]] c)
          (Cert.ReferenceIdeal.Read.val_main_v0 (F := Ideal) X) := by
  refine funext fun (y : S512x512.Idx) => ?_
  have hc := coord_lt c
  have hy0 : (y 0).val < 512 := (y 0).isLt
  have hy1 : (y 1).val < 512 := (y 1).isLt
  obtain ⟨k, hk⟩ : ∃ k : Fin 4, k.val = (y 0).val / 128 := ⟨⟨(y 0).val / 128, by omega⟩, rfl⟩
  obtain ⟨r, hr⟩ : ∃ r : Fin 128, r.val = (y 0).val % 128 := ⟨⟨(y 0).val % 128, by omega⟩, rfl⟩
  obtain ⟨j, hj⟩ : ∃ j : Fin 512, j.val = (y 1).val := ⟨⟨(y 1).val, hy1⟩, rfl⟩
  obtain ⟨a, ha⟩ : ∃ a : Fin 512, a.val = (y 0).val := ⟨⟨(y 0).val, hy0⟩, rfl⟩
  obtain ⟨b, hb⟩ : ∃ b : Fin 1024, b.val = 512 * (c.val / 8) + (y 1).val := ⟨⟨512 * (c.val / 8) + (y 1).val, by omega⟩, rfl⟩
  obtain ⟨d, hd⟩ : ∃ d : Fin 2, d.val = c.val / 8 := ⟨⟨c.val / 8, hc⟩, rfl⟩
  obtain ⟨d', hd'⟩ : ∃ d' : Fin 2, d'.val = 1 - c.val / 8 := ⟨⟨1 - c.val / 8, by omega⟩, rfl⟩
  have hL : (outAt m ρ c y : EReal) = X (ix3 d a b) + X (ix3 d' a b) :=
    (outAt_apply m ρ c k r j y (by omega) hj.symm).trans
      (ov_apply m ρ X hA c k r j d d' a b hd hd' (by omega) (by omega))
  refine hL.trans ?_
  rw [Layout.blockN_apply]
  refine Eq.trans ?_ ((congrArg (Cert.ReferenceIdeal.Read.val_main_v0 (F := Ideal) X) (?_ : ix2 a b = _)).trans rfl)
  · rw [ref_apply]
    rcases (by omega : c.val / 8 = 0 ∨ c.val / 8 = 1) with h | h
    · have e : d = 0 := Fin.ext (by rw [hd, h]; rfl)
      have e' : d' = 1 := Fin.ext (by rw [hd', h]; rfl)
      rw [e, e']
    · have e : d = 1 := Fin.ext (by rw [hd, h]; rfl)
      have e' : d' = 0 := Fin.ext (by rw [hd', h]; rfl)
      rw [e, e']
      exact add_comm (G := EReal) _ _
  · refine funext fun t => Fin.ext ?_
    match t with
    | ⟨0, _⟩ =>
      show a.val = 0 * 512 + (y 0).val
      omega
    | ⟨1, _⟩ =>
      show b.val = Layout.meshLin [2, 2, 4] c.val [0] * 512 + (y 1).val
      rw [meshLin_first, hb]; omega

/-! ## The claim, from the kernel's run with its final arrays named -/

theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD, ∀ w : Fin Cert.KernelIdeal.cfg0.W,
          r.2.mem ((Cert.KernelIdeal.cfg0.win w).arr.view.loc (c : Thread Cert.KernelIdeal.nD Cert.KernelIdeal.τ)) = (Cert.KernelIdealProof.dats m ρ 0 c).arrAt w Cert.KernelIdeal.cfg0.N)) :
    Cert.algebraic_KernelIdeal_ReferenceIdeal := by
  intro m g m' g' _ hagree
  have hA : Agree m (m' (((0 : Dev Cert.ReferenceIdeal.nD).tc : Thread Cert.ReferenceIdeal.nD Cert.ReferenceIdeal.τ).loc Cert.ReferenceIdeal.main_arg0)) := hagree
  refine ⟨Cert.ReferenceIdeal.Read.val_main_v0 (F := Ideal) (m' (((0 : Dev Cert.ReferenceIdeal.nD).tc : Thread Cert.ReferenceIdeal.nD Cert.ReferenceIdeal.τ).loc Cert.ReferenceIdeal.main_arg0)), ?_, ?_⟩
  · refine (θ_run _ _ _).mono (fun r h c => ⟨?_, ?_⟩) (hrun m g)
    · exact ((h c (1 : Fin 2)).trans (arr_out m g c)).trans (out_eq m g _ hA c)
    · exact (h c (0 : Fin 2)).trans (arr_x m g c)
  · exact (θ_run Cert.ReferenceIdeal.defs _ _).mono
      (fun _ h => ⟨(h 0).1.trans (Cert.ReferenceIdeal.Read.val_main_v0_eq _), (h 0).2⟩)
      (Cert.ReferenceIdeal.Value.run (F := Ideal) m' g')

/-- info: 'Cert.ValueProof.frame_ri' depends on axioms: [propext, Classical.choice, Quot.sound] -/
#guard_msgs in #print axioms frame_ri

/-- info: 'Cert.ValueProof.algebraic_of_run' depends on axioms: [propext, Classical.choice, Quot.sound] -/
#guard_msgs in #print axioms algebraic_of_run

end Cert.ValueProof

end
-- ==== Proof.lean ====
/-
  The certificate's five claims, assembled.

  Sixteen devices in a 2 × 2 × 4 mesh; the input `x` (2 × 512 × 1024) is cut along its first axis over the first mesh
  axis, so device `c` holds `X[c / 8]`, and the result (512 × 1024) is cut along its columns over the same axis. Device
  `c` and its partner (the device with the other first coordinate) exchange column halves: each sends the partner's half
  of its block and adds what it receives to its own half, so device `c` ends with `X[0] + X[1]` on its 512 columns —
  the reference's sum over the first axis, read at those columns (its leading `0 +` and the order of the two summands
  do not matter on the extended reals). The casts to and from bf16 on the way are the identity at the ideal instance.

  The frames of the two kernel programs are one run, proved once for any float instance (the protocol: an entry
  handshake on the barrier semaphore, four row-block copies each with a send and a receive cell) and read at the
  word-level and at the ideal instance; the reference's frame is its run with the value dropped; nothing was rewritten
  by the idealization, so `preserves` has nothing to state.
-/
import proofs.«901036_g7700000000001037_dist_rs_v7x_xyz2x2x4_x_m512_n512_f32_1_alg».proof.Defs
import proofs.«901036_g7700000000001037_dist_rs_v7x_xyz2x2x4_x_m512_n512_f32_1_alg».proof.Proof.Gen.Kernel
import proofs.«901036_g7700000000001037_dist_rs_v7x_xyz2x2x4_x_m512_n512_f32_1_alg».proof.Proof.Gen.KernelIdeal
import proofs.«901036_g7700000000001037_dist_rs_v7x_xyz2x2x4_x_m512_n512_f32_1_alg».proof.Proof.Gen.ReferenceIdeal
import proofs.«901036_g7700000000001037_dist_rs_v7x_xyz2x2x4_x_m512_n512_f32_1_alg».proof.Proof.Gen.Pre_finite_inputs_Kernel
import proofs.«901036_g7700000000001037_dist_rs_v7x_xyz2x2x4_x_m512_n512_f32_1_alg».proof.Proof.Gen.Pre_finite_inputs_ReferenceIdeal
import proofs.«901036_g7700000000001037_dist_rs_v7x_xyz2x2x4_x_m512_n512_f32_1_alg».proof.Proof.KernelHand.Launch
import proofs.«901036_g7700000000001037_dist_rs_v7x_xyz2x2x4_x_m512_n512_f32_1_alg».proof.Proof.KernelHand.Arrays
import proofs.«901036_g7700000000001037_dist_rs_v7x_xyz2x2x4_x_m512_n512_f32_1_alg».proof.Proof.KernelHand.Body
import proofs.«901036_g7700000000001037_dist_rs_v7x_xyz2x2x4_x_m512_n512_f32_1_alg».proof.Proof.KernelIdealHand.Launch
import proofs.«901036_g7700000000001037_dist_rs_v7x_xyz2x2x4_x_m512_n512_f32_1_alg».proof.Proof.KernelIdealHand.Arrays
import proofs.«901036_g7700000000001037_dist_rs_v7x_xyz2x2x4_x_m512_n512_f32_1_alg».proof.Proof.KernelIdealHand.Body
import proofs.«901036_g7700000000001037_dist_rs_v7x_xyz2x2x4_x_m512_n512_f32_1_alg».proof.Proof.Value
import Idealize.ShloMosaic.Adequacy
import Idealize.ShloMosaic.Init

noncomputable section

namespace Cert.Proof

open Idealize.ShloMosaic Idealize.SL.Sem

/-- The word-level kernel runs and leaves `x` as it was: the run's final arrays read at the input window. -/
theorem frame_k : Cert.frame_Kernel := fun m ρ _ =>
  (θ_run (Cert.Kernel.defs (F := Bits)) _ _).mono (fun _ h c => (h c 0).trans (Cert.KernelProof.arr_x m ρ c))
    (Cert.KernelProof.run_main (F := Bits) m ρ (Cert.KernelProof.body_obligation m ρ))

/-- The same run at the ideal instance. -/
theorem frame_ki : Cert.frame_KernelIdeal := fun m ρ _ =>
  (θ_run (Cert.KernelIdeal.defs (F := Ideal)) _ _).mono (fun _ h c => (h c 0).trans (Cert.KernelIdealProof.arr_x m ρ c))
    (Cert.KernelIdealProof.run_main (F := Ideal) m ρ (Cert.KernelIdealProof.body_obligation m ρ))

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_k, frame_ki, Cert.ValueProof.frame_ri, trivial,
    Cert.ValueProof.algebraic_of_run fun m ρ =>
      Cert.KernelIdealProof.run_main (F := Ideal) m ρ (Cert.KernelIdealProof.body_obligation m ρ)⟩

end Cert.Proof

end
